-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84_1)) (v1 : (c : Dev Cert.KernelIdeal.nD) → Buf (Elt Ideal) ((c.tc : Thread Cert.KernelIdeal.nD Cert.KernelIdeal.τ).loc Cert.KernelIdeal.main_v84_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84_1) = v0 c
          ∧ r.2.mem ((c.tc : Thread Cert.KernelIdeal.nD Cert.KernelIdeal.τ).loc Cert.KernelIdeal.main_v84_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x4 : Shape := ⟨2, ![2, 4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x4 : S_.BroadcastsInDim S2x4 (![] : Fin 0 → Fin S2x4.rank)
  reducesTo_S2x4_S_d0_1 : S2x4.ReducesTo [0, 1] S_

variable [Facts]

def fn_part2 {F : FTy → Type} [FloatOps F] (main_arg8 : FVec F S2x4 .f32) (main_arg9 : FVec F S4 .f32) (main_v33 : IVec S_ 1) : IVec S_ 1 :=
  let main_v34 : FVec F S2x4 .f32 := Host.absf main_arg8
  let main_cst_12 : FVec F S_ .f32 := constant S_ .f32 0x7F800000#32
  let main_v35 : FVec F S2x4 .f32 := broadcastInDim S2x4 ![] bcast_S_S2x4 main_cst_12
  let main_v36 : IVec S2x4 1 := cmpf .olt main_v34 main_v35
  let main_c_13 : IVec S_ 1 := constantI S_ 1 1#1
  let main_v37 : IVec S_ 1 := (fun x v => Host.reduce IntOp.andi x v reducesTo_S2x4_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg5 : FVec F S4 .f32) (main_arg6 : FVec F S4x2 .f32) (main_arg7 : FVec F S2 .f32) (main_arg8 : FVec F S2x4 .f32) (main_arg9 : FVec F S4 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x2 .f32 := Host.absf main_arg6
  let main_cst_8 : FVec F S_ .f32 := constant S_ .f32 0x7F800000#32
  let main_v25 : FVec F S4x2 .f32 := broadcastInDim S4x2 ![] bcast_S_S4x2 main_cst_8
  let main_v26 : IVec S4x2 1 := cmpf .olt main_v24 main_v25
  let main_c_9 : IVec S_ 1 := constantI S_ 1 1#1
  let main_v27 : IVec S_ 1 := (fun x v => Host.reduce IntOp.andi x v reducesTo_S4x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x4 .f32) (main_arg3 : FVec F S4 .f32) (main_arg4 : FVec F S4x4 .f32) (main_arg5 : FVec F S4 .f32) (main_arg6 : FVec F S4x2 .f32) (main_arg7 : FVec F S2 .f32) (main_arg8 : FVec F S2x4 .f32) (main_arg9 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x4 .f32 := Host.absf main_arg2
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x4 : Shape := ⟨2, ![2, 4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x4 : Shape := ⟨2, ![100000, 4]⟩
abbrev S10000x128 : Shape := ⟨2, ![10000, 128]⟩
abbrev S10000x4 : Shape := ⟨2, ![10000, 4]⟩
abbrev S3300000x4 : Shape := ⟨2, ![3300000, 4]⟩
abbrev S1x4 : Shape := ⟨2, ![1, 4]⟩
abbrev S5000x4 : Shape := ⟨2, ![5000, 4]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩

abbrev nBuf : Space → Nat
  | .hbm => 116
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S2x4, .f32⟩
  | .hbm, ⟨9, _⟩ => ⟨S4, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S100000x4, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x4, .f32⟩
  | .hbm, ⟨63, _⟩ => ⟨S3300000x1, .f32⟩
  | .hbm, ⟨64, _⟩ => ⟨S3300000x4, .f32⟩
  | .hbm, ⟨65, _⟩ => ⟨S3300000x4, .f32⟩
  | .hbm, ⟨66, _⟩ => ⟨S_, .f32⟩
  | .hbm, ⟨67, _⟩ => ⟨S100000x4, .f32⟩
  | .hbm, ⟨68, _⟩ => ⟨S3300000x1, .i32⟩
  | .hbm, ⟨69, _⟩ => ⟨S100000x4, .f32⟩
  | .hbm, ⟨70, _⟩ => ⟨S1x4, .f32⟩
  | .hbm, ⟨71, _⟩ => ⟨S100000x4, .f32⟩
  | .hbm, ⟨72, _⟩ => ⟨S100000x4, .f32⟩
  | .hbm, ⟨73, _⟩ => ⟨S100000x4, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x4, .f32⟩
  | .hbm, ⟨83, _⟩ => ⟨S3300000x1, .f32⟩
  | .hbm, ⟨84, _⟩ => ⟨S3300000x4, .f32⟩
  | .hbm, ⟨85, _⟩ => ⟨S3300000x4, .f32⟩
  | .hbm, ⟨86, _⟩ => ⟨S_, .f32⟩
  | .hbm, ⟨87, _⟩ => ⟨S100000x4, .f32⟩
  | .hbm, ⟨88, _⟩ => ⟨S3300000x1, .i32⟩
  | .hbm, ⟨89, _⟩ => ⟨S100000x4, .f32⟩
  | .hbm, ⟨90, _⟩ => ⟨S1x4, .f32⟩
  | .hbm, ⟨91, _⟩ => ⟨S100000x4, .f32⟩
  | .hbm, ⟨92, _⟩ => ⟨S100000x4, .f32⟩
  | .hbm, ⟨93, _⟩ => ⟨S100000x2, .f32⟩
  | .hbm, ⟨94, _⟩ => ⟨S_, .i32⟩
  | .hbm, ⟨95, _⟩ => ⟨S3300000, .i32⟩
  | .hbm, ⟨96, _⟩ => ⟨S3300000, .i1⟩
  | .hbm, ⟨97, _⟩ => ⟨S_, .i32⟩
  | .hbm, ⟨98, _⟩ => ⟨S3300000, .i32⟩
  | .hbm, ⟨99, _⟩ => ⟨S3300000, .i32⟩
  | .hbm, ⟨100, _⟩ => ⟨S3300000, .i32⟩
  | .hbm, ⟨101, _⟩ => ⟨S3300000x1, .i32⟩
  | .hbm, ⟨102, _⟩ => ⟨S3300000x2, .f32⟩
  | .hbm, ⟨103, _⟩ => ⟨S3300000x1, .f32⟩
  | .hbm, ⟨104, _⟩ => ⟨S3300000x2, .f32⟩
  | .hbm, ⟨105, _⟩ => ⟨S3300000x2, .f32⟩
  | .hbm, ⟨106, _⟩ => ⟨S_, .f32⟩
  | .hbm, ⟨107, _⟩ => ⟨S100000x2, .f32⟩
  | .hbm, ⟨108, _⟩ => ⟨S3300000x1, .i32⟩
  | .hbm, ⟨109, _⟩ => ⟨S100000x2, .f32⟩
  | .hbm, ⟨110, _⟩ => ⟨S1x2, .f32⟩
  | .hbm, ⟨111, _⟩ => ⟨S100000x2, .f32⟩
  | .hbm, ⟨112, _⟩ => ⟨S100000x2, .f32⟩
  | .hbm, ⟨113, _⟩ => ⟨S1x4, .f32⟩
  | .hbm, ⟨114, _⟩ => ⟨S100000x2, .f32⟩
  | .hbm, ⟨115, _⟩ => ⟨S100000x4, .f32⟩
  | .local _ .vmem, ⟨0, _⟩ => ⟨S10000x128, .f32⟩
  | .local _ .vmem, ⟨1, _⟩ => ⟨S10000x128, .f32⟩
  | .local _ .vmem, ⟨2, _⟩ => ⟨S128x4, .f32⟩
  | .local _ .vmem, ⟨3, _⟩ => ⟨S10000x4, .f32⟩
  | .local _ .vmem, ⟨4, _⟩ => ⟨S10000x4, .f32⟩
  | .local _ .vmem, ⟨5, _⟩ => ⟨S5000x4, .f32⟩
  | .local _ .vmem, ⟨6, _⟩ => ⟨S5000x4, .f32⟩
  | .local _ .vmem, ⟨7, _⟩ => ⟨S4x4, .f32⟩
  | .local _ .vmem, ⟨8, _⟩ => ⟨S5000x4, .f32⟩
  | .local _ .vmem, ⟨9, _⟩ => ⟨S5000x4, .f32⟩
  | .local _ .vmem, ⟨10, _⟩ => ⟨S5000x4, .f32⟩
  | .local _ .vmem, ⟨11, _⟩ => ⟨S5000x4, .f32⟩
  | .local _ .vmem, ⟨12, _⟩ => ⟨S4x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S2x4, .f32⟩
  | .local _ .vmem, ⟨18, _⟩ => ⟨S1x4, .f32⟩
  | .local _ .vmem, ⟨19, _⟩ => ⟨S5000x2, .f32⟩
  | .local _ .vmem, ⟨20, _⟩ => ⟨S5000x2, .f32⟩
  | .local _ .vmem, ⟨21, _⟩ => ⟨S5000x4, .f32⟩
  | .local _ .vmem, ⟨22, _⟩ => ⟨S5000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84_0 : Ref sig .tc := ⟨.hbm, 114, rfl⟩
abbrev main_v84_1 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc3_sem4_0 : DmaSem sig := 21
abbrev cc3_sem4_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x4 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x4_S128x4_0_0 : ∀ a, (![0, 0] : Fin 2 → Nat) a + S128x4.size a ≤ S128x4.size a
  h_S128x4 : 0 < S128x4.numel
  inb_S10000x4_S10000x4_0_0 : ∀ a, (![0, 0] : Fin 2 → Nat) a + S10000x4.size a ≤ S10000x4.size a
  h_S10000x4 : 0 < S10000x4.numel
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  inb_S4x4_S4x4_0_0 : ∀ a, (![0, 0] : Fin 2 → Nat) a + S4x4.size a ≤ S4x4.size a
  h_S4x4 : 0 < S4x4.numel
  inb_S4x2_S4x2_0_0 : ∀ a, (![0, 0] : Fin 2 → Nat) a + S4x2.size a ≤ S4x2.size a
  h_S4x2 : 0 < S4x2.numel
  inb_S5000x2_S5000x2_0_0 : ∀ a, (![0, 0] : Fin 2 → Nat) a + S5000x2.size a ≤ S5000x2.size a
  h_S5000x2 : 0 < S5000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  shapeCasts_S4_S1x4 : S4.ShapeCasts S1x4
  shapeCasts_S5000x2_S5000x2 : S5000x2.ShapeCasts S5000x2
  inb_S2x4_S2x4_0_0 : ∀ a, (![0, 0] : Fin 2 → Nat) a + S2x4.size a ≤ S2x4.size a
  h_S2x4 : 0 < S2x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x4_S10000x4_1_0_0_1_n_n_wf : DotDims.WF S10000x128 S128x4 S10000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S5000x4_S4x4_S5000x4_1_0_0_1_n_n_wf : DotDims.WF S5000x4 S4x4 S5000x4 [1] [0] [0] [1] [] []
  dot_S5000x4_S4x2_S5000x2_1_0_0_1_n_n_wf : DotDims.WF S5000x4 S4x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  dot_S5000x2_S2x4_S5000x4_1_0_0_1_n_n_wf : DotDims.WF S5000x2 S2x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x4.size a ≤ S100000x4.size a
  hwx0_2 : ∀ i : grid0.Coords, EltTy.bits .f32 = 32 ∨ (Rect.block (s := S100000x4) S10000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x4.size a ≤ S100000x4.size a
  hwx1_0 : ∀ i : grid1.Coords, EltTy.bits .f32 = 32 ∨ (Rect.block (s := S100000x4) S5000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x4.size a ≤ S4x4.size a
  hwx1_1 : ∀ i : grid1.Coords, EltTy.bits .f32 = 32 ∨ (Rect.block (s := S4x4) S4x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x4.size a ≤ S100000x4.size a
  hwx1_2 : ∀ i : grid1.Coords, EltTy.bits .f32 = 32 ∨ (Rect.block (s := S100000x4) S5000x4.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x4.size a ≤ S100000x4.size a
  hwx2_0 : ∀ i : grid2.Coords, EltTy.bits .f32 = 32 ∨ (Rect.block (s := S100000x4) S5000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x2.size a ≤ S4x2.size a
  hwx2_1 : ∀ i : grid2.Coords, EltTy.bits .f32 = 32 ∨ (Rect.block (s := S4x2) S4x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x4.size a ≤ S2x4.size a
  hwx3_1 : ∀ i : grid3.Coords, EltTy.bits .f32 = 32 ∨ (Rect.block (s := S2x4) S2x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4.size a ≤ S1x4.size a
  hwx3_2 : ∀ i : grid3.Coords, EltTy.bits .f32 = 32 ∨ (Rect.block (s := S1x4) S1x4.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x2.size a ≤ S100000x2.size a
  hwx3_3 : ∀ i : grid3.Coords, EltTy.bits .f32 = 32 ∨ (Rect.block (s := S100000x2) S5000x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x4.size a ≤ S100000x4.size a
  hwx3_4 : ∀ i : grid3.Coords, EltTy.bits .f32 = 32 ∨ (Rect.block (s := S100000x4) S5000x4.size (cc3_transform_4 i) (hinb3_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x4_S10000x4_1_0_0_1_n_n : DotDims S10000x128 S128x4 S10000x4 where
  lhsContracting := [1]
  rhsContracting := [0]
  lhsNonContracting := [0]
  rhsNonContracting := [1]
  lhsBatch := []
  rhsBatch := []
  wf := dot_S10000x128_S128x4_S10000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S5000x4_S4x4_S5000x4_1_0_0_1_n_n : DotDims S5000x4 S4x4 S5000x4 where
  lhsContracting := [1]
  rhsContracting := [0]
  lhsNonContracting := [0]
  rhsNonContracting := [1]
  lhsBatch := []
  rhsBatch := []
  wf := dot_S5000x4_S4x4_S5000x4_1_0_0_1_n_n_wf
def dot_S5000x4_S4x2_S5000x2_1_0_0_1_n_n : DotDims S5000x4 S4x2 S5000x2 where
  lhsContracting := [1]
  rhsContracting := [0]
  lhsNonContracting := [0]
  rhsNonContracting := [1]
  lhsBatch := []
  rhsBatch := []
  wf := dot_S5000x4_S4x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def dot_S5000x2_S2x4_S5000x4_1_0_0_1_n_n : DotDims S5000x2 S2x4 S5000x4 where
  lhsContracting := [1]
  rhsContracting := [0]
  lhsNonContracting := [0]
  rhsNonContracting := [1]
  lhsBatch := []
  rhsBatch := []
  wf := dot_S5000x2_S2x4_S5000x4_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S4x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S4x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S2x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x4.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v84_0) S5000x2.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v84_1) S5000x4.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x4 : Shape := ⟨2, ![2, 4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x4 : Shape := ⟨2, ![100000, 4]⟩
abbrev S3300000x4 : Shape := ⟨2, ![3300000, 4]⟩
abbrev S1x4 : Shape := ⟨2, ![1, 4]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S2x4, .f32⟩
  | .hbm, ⟨9, _⟩ => ⟨S4, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S100000x4, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x4, .f32⟩
  | .hbm, ⟨63, _⟩ => ⟨S3300000x1, .f32⟩
  | .hbm, ⟨64, _⟩ => ⟨S3300000x4, .f32⟩
  | .hbm, ⟨65, _⟩ => ⟨S3300000x4, .f32⟩
  | .hbm, ⟨66, _⟩ => ⟨S_, .f32⟩
  | .hbm, ⟨67, _⟩ => ⟨S100000x4, .f32⟩
  | .hbm, ⟨68, _⟩ => ⟨S3300000x1, .i32⟩
  | .hbm, ⟨69, _⟩ => ⟨S100000x4, .f32⟩
  | .hbm, ⟨70, _⟩ => ⟨S1x4, .f32⟩
  | .hbm, ⟨71, _⟩ => ⟨S100000x4, .f32⟩
  | .hbm, ⟨72, _⟩ => ⟨S100000x4, .f32⟩
  | .hbm, ⟨73, _⟩ => ⟨S100000x4, .f32⟩
  | .hbm, ⟨74, _⟩ => ⟨S100000x4, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x4, .f32⟩
  | .hbm, ⟨84, _⟩ => ⟨S3300000x1, .f32⟩
  | .hbm, ⟨85, _⟩ => ⟨S3300000x4, .f32⟩
  | .hbm, ⟨86, _⟩ => ⟨S3300000x4, .f32⟩
  | .hbm, ⟨87, _⟩ => ⟨S_, .f32⟩
  | .hbm, ⟨88, _⟩ => ⟨S100000x4, .f32⟩
  | .hbm, ⟨89, _⟩ => ⟨S3300000x1, .i32⟩
  | .hbm, ⟨90, _⟩ => ⟨S100000x4, .f32⟩
  | .hbm, ⟨91, _⟩ => ⟨S1x4, .f32⟩
  | .hbm, ⟨92, _⟩ => ⟨S100000x4, .f32⟩
  | .hbm, ⟨93, _⟩ => ⟨S100000x4, .f32⟩
  | .hbm, ⟨94, _⟩ => ⟨S100000x4, .f32⟩
  | .hbm, ⟨95, _⟩ => ⟨S100000x2, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000x2, .f32⟩
  | .hbm, ⟨105, _⟩ => ⟨S3300000x1, .f32⟩
  | .hbm, ⟨106, _⟩ => ⟨S3300000x2, .f32⟩
  | .hbm, ⟨107, _⟩ => ⟨S3300000x2, .f32⟩
  | .hbm, ⟨108, _⟩ => ⟨S_, .f32⟩
  | .hbm, ⟨109, _⟩ => ⟨S100000x2, .f32⟩
  | .hbm, ⟨110, _⟩ => ⟨S3300000x1, .i32⟩
  | .hbm, ⟨111, _⟩ => ⟨S100000x2, .f32⟩
  | .hbm, ⟨112, _⟩ => ⟨S1x2, .f32⟩
  | .hbm, ⟨113, _⟩ => ⟨S100000x2, .f32⟩
  | .hbm, ⟨114, _⟩ => ⟨S100000x2, .f32⟩
  | .hbm, ⟨115, _⟩ => ⟨S100000x2, .f32⟩
  | .hbm, ⟨116, _⟩ => ⟨S100000x4, .f32⟩
  | .hbm, ⟨117, _⟩ => ⟨S1x4, .f32⟩
  | .hbm, ⟨118, _⟩ => ⟨S100000x4, .f32⟩
  | .hbm, ⟨119, _⟩ => ⟨S100000x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x4_S100000x4_1_0_0_1_n_n_wf : DotDims.WF S100000x128 S128x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S100000x4_S4x4_S100000x4_1_0_0_1_n_n_wf : DotDims.WF S100000x4 S4x4 S100000x4 [1] [0] [0] [1] [] []
  dot_S100000x4_S4x2_S100000x2_1_0_0_1_n_n_wf : DotDims.WF S100000x4 S4x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  dot_S100000x2_S2x4_S100000x4_1_0_0_1_n_n_wf : DotDims.WF S100000x2 S2x4 S100000x4 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S100000x4_S4x4_S100000x4_1_0_0_1_n_n : DotDims S100000x4 S4x4 S100000x4 where
  lhsContracting := [1]
  rhsContracting := [0]
  lhsNonContracting := [0]
  rhsNonContracting := [1]
  lhsBatch := []
  rhsBatch := []
  wf := dot_S100000x4_S4x4_S100000x4_1_0_0_1_n_n_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def dot_S100000x2_S2x4_S100000x4_1_0_0_1_n_n : DotDims S100000x2 S2x4 S100000x4 where
  lhsContracting := [1]
  rhsContracting := [0]
  lhsNonContracting := [0]
  rhsNonContracting := [1]
  lhsBatch := []
  rhsBatch := []
  wf := dot_S100000x2_S2x4_S100000x4_1_0_0_1_n_n_wf

class Facts : Prop extends Facts₀ where

variable [Facts]
-- ==== Proof.Levels0.lean ====
import proofs.«128120_j80625126080958_1_alg».proof.Proof.Gen.KernelIdeal.Frame
import proofs.«128120_j80625126080958_1_alg».proof.Proof.RefRead
import Idealize.ShloMosaic.Lib.StableHlo.Run

/-! The host operations that run before the first dense step, read stretch by stretch: the edge list with the
    self-loops appended (destinations, sources) and the symmetric per-edge normalisation 1/sqrt(deg) at both ends are
    functions of the integer edge input alone, and they are the very operations the reference applies to it. Each fact
    says that a buffer of the kernel program holds, at a boundary of its host stretches, the reference's own stage
    function of the launch arrays. -/

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo
open Cert.ReferenceIdeal.ReadP (val_main_v3 val_main_v6 val_main_v12 val_main_v15 val_main_cst_3 val_main_v16 val_main_v31)

variable {F : FTy → Type} [FloatOps F]
variable (m : (ℓ : Loc nD τ sig) → Buf (Elt F) ℓ) (ρ : Dev nD → PrngReg) (c : Dev nD)

/-! ## After the first stretch: the two index lists, the degree test and the inverse square root of the degrees -/

theorem W1_v3 : W1 m ρ c (Proc.devRef .tc main_v3) = val_main_v3 (F := F) (m ((c : Thread nD τ).loc main_arg1)) := by
  show StableHlo.after hostOps0 (W0 m ρ c) (Proc.devRef .tc main_v3) = _
  after_results
  rfl

theorem W1_v6 : W1 m ρ c (Proc.devRef .tc main_v6) = val_main_v6 (F := F) (m ((c : Thread nD τ).loc main_arg1)) := by
  show StableHlo.after hostOps0 (W0 m ρ c) (Proc.devRef .tc main_v6) = _
  after_results
  rfl

set_option maxHeartbeats 1000000 in
theorem W1_v12 : W1 m ρ c (Proc.devRef .tc main_v12) = val_main_v12 (F := F) (m ((c : Thread nD τ).loc main_arg1)) := by
  show StableHlo.after hostOps0 (W0 m ρ c) (Proc.devRef .tc main_v12) = _
  after_results
  rfl

set_option maxHeartbeats 1000000 in
theorem W1_v15 : W1 m ρ c (Proc.devRef .tc main_v15) = val_main_v15 (F := F) (m ((c : Thread nD τ).loc main_arg1)) := by
  show StableHlo.after hostOps0 (W0 m ρ c) (Proc.devRef .tc main_v15) = _
  after_results
  rfl

theorem W1_cst_3 : W1 m ρ c (Proc.devRef .tc main_cst_3) = val_main_cst_3 (F := F) := by
  show StableHlo.after hostOps0 (W0 m ρ c) (Proc.devRef .tc main_cst_3) = _
  after_results
  rfl

set_option maxHeartbeats 4000000 in
/-- No operation of the first stretch writes an argument. -/
theorem W1_arg (b : Ref sig .tc) (hb : b = main_arg0 ∨ b = main_arg2 ∨ b = main_arg3 ∨ b = main_arg4 ∨ b = main_arg5 ∨ b = main_arg6 ∨ b = main_arg7 ∨ b = main_arg8 ∨ b = main_arg9) :
    W1 m ρ c (Proc.devRef .tc b) = m ((c : Thread nD τ).loc b) := by
  show StableHlo.after hostOps0 (W0 m ρ c) (Proc.devRef .tc b) = _
  rcases hb with rfl | rfl | rfl | rfl | rfl | rfl | rfl | rfl | rfl <;> (after_results <;> rfl)

/-! ## After the second stretch (the select): the inverse square root where the degree is positive, zero elsewhere -/

theorem W2_v16 : W2 m ρ c (Proc.devRef .tc main_v16) = val_main_v16 (F := F) (m ((c : Thread nD τ).loc main_arg1)) := by
  show StableHlo.after hostOps0_1 (W1 m ρ c) (Proc.devRef .tc main_v16) = _
  have h12 := W1_v12 m ρ c
  have h15 := W1_v15 m ρ c
  have hc3 := W1_cst_3 m ρ c
  generalize W1 m ρ c = Wv at h12 h15 hc3 ⊢
  after_results
  rw [h12, h15, hc3]
  rfl

theorem W2_v3 : W2 m ρ c (Proc.devRef .tc main_v3) = val_main_v3 (F := F) (m ((c : Thread nD τ).loc main_arg1)) := by
  show StableHlo.after hostOps0_1 (W1 m ρ c) (Proc.devRef .tc main_v3) = _
  have h := W1_v3 m ρ c
  generalize W1 m ρ c = Wv at h ⊢
  after_results <;> exact h

theorem W2_v6 : W2 m ρ c (Proc.devRef .tc main_v6) = val_main_v6 (F := F) (m ((c : Thread nD τ).loc main_arg1)) := by
  show StableHlo.after hostOps0_1 (W1 m ρ c) (Proc.devRef .tc main_v6) = _
  have h := W1_v6 m ρ c
  generalize W1 m ρ c = Wv at h ⊢
  after_results <;> exact h

set_option maxHeartbeats 4000000 in
theorem W2_arg (b : Ref sig .tc) (hb : b = main_arg0 ∨ b = main_arg2 ∨ b = main_arg3 ∨ b = main_arg4 ∨ b = main_arg5 ∨ b = main_arg6 ∨ b = main_arg7 ∨ b = main_arg8 ∨ b = main_arg9) :
    W2 m ρ c (Proc.devRef .tc b) = m ((c : Thread nD τ).loc b) := by
  show StableHlo.after hostOps0_1 (W1 m ρ c) (Proc.devRef .tc b) = _
  have h := W1_arg m ρ c b hb
  generalize W1 m ρ c = Wv at h ⊢
  rcases hb with rfl | rfl | rfl | rfl | rfl | rfl | rfl | rfl | rfl <;> (after_results <;> exact h)

/-! ## After the third stretch (region 0's entry): the per-edge normalisation, the two index lists kept -/

set_option maxHeartbeats 1000000 in
theorem W3_v31 : W3 m ρ c (Proc.devRef .tc main_v31) = val_main_v31 (F := F) (m ((c : Thread nD τ).loc main_arg1)) := by
  show StableHlo.after hostOps0_2 (W2 m ρ c) (Proc.devRef .tc main_v31) = _
  have h16 := W2_v16 m ρ c
  have h3 := W2_v3 m ρ c
  have h6 := W2_v6 m ρ c
  generalize W2 m ρ c = Wv at h16 h3 h6 ⊢
  after_results
  rw [h16, h3, h6]
  rfl

theorem W3_v3 : W3 m ρ c (Proc.devRef .tc main_v3) = val_main_v3 (F := F) (m ((c : Thread nD τ).loc main_arg1)) := by
  show StableHlo.after hostOps0_2 (W2 m ρ c) (Proc.devRef .tc main_v3) = _
  have h := W2_v3 m ρ c
  generalize W2 m ρ c = Wv at h ⊢
  after_results <;> exact h

theorem W3_v6 : W3 m ρ c (Proc.devRef .tc main_v6) = val_main_v6 (F := F) (m ((c : Thread nD τ).loc main_arg1)) := by
  show StableHlo.after hostOps0_2 (W2 m ρ c) (Proc.devRef .tc main_v6) = _
  have h := W2_v6 m ρ c
  generalize W2 m ρ c = Wv at h ⊢
  after_results <;> exact h

set_option maxHeartbeats 4000000 in
/-- No host operation before the first dense step writes an argument: at region 0's entry each holds its launch contents. -/
theorem W3_arg (b : Ref sig .tc) (hb : b = main_arg0 ∨ b = main_arg2 ∨ b = main_arg3 ∨ b = main_arg4 ∨ b = main_arg5 ∨ b = main_arg6 ∨ b = main_arg7 ∨ b = main_arg8 ∨ b = main_arg9) :
    W3 m ρ c (Proc.devRef .tc b) = m ((c : Thread nD τ).loc b) := by
  show StableHlo.after hostOps0_2 (W2 m ρ c) (Proc.devRef .tc b) = _
  have h := W2_arg m ρ c b hb
  generalize W2 m ρ c = Wv at h ⊢
  rcases hb with rfl | rfl | rfl | rfl | rfl | rfl | rfl | rfl | rfl <;> (after_results <;> exact h)

end Cert.KernelIdeal.Val

end
-- ==== Proof.Spec.lean ====
import proofs.«128120_j80625126080958_1_alg».proof.Proof.Gen.ReferenceIdeal
import Idealize.ShloMosaic.PureOps.Ideal
import Idealize.ShloMosaic.PureOps.Ideal.Laws

/-! The four dense steps of the network, each as ONE whole-array function over the extended reals, written with the
    host's own operations: a row-by-column product x · W, the product after a pointwise tanh, and the last step
    tanh(p) · Wc + bc with the bias row repeated down the rows. The aggregation steps between them (gather, per-edge
    scaling, segment sum, bias) are the same host operations on both sides and are never opened. -/

noncomputable section

namespace Cert.Bridge

open Idealize.ShloMosaic Cert.ReferenceIdeal Cert.ReferenceIdeal.Gen

/-- x · W₁: rows of 128 features times a 128 × 4 matrix. -/
def proj (x : FVec Ideal S100000x128 .f32) (w : FVec Ideal S128x4 .f32) : FVec Ideal S100000x4 .f32 :=
  Host.dotGeneral dot_S100000x128_S128x4_S100000x4_1_0_0_1_n_n none x w

/-- tanh(p) · W₂: 4 features to 4. -/
def tmm4 (p : FVec Ideal S100000x4 .f32) (w : FVec Ideal S4x4 .f32) : FVec Ideal S100000x4 .f32 :=
  Host.dotGeneral dot_S100000x4_S4x4_S100000x4_1_0_0_1_n_n none (Host.tanh p) w

/-- tanh(p) · W₃: 4 features to 2. -/
def tmm2 (p : FVec Ideal S100000x4 .f32) (w : FVec Ideal S4x2 .f32) : FVec Ideal S100000x2 .f32 :=
  Host.dotGeneral dot_S100000x4_S4x2_S100000x2_1_0_0_1_n_n none (Host.tanh p) w

/-- The hidden activation the network returns: tanh(p). -/
def hid (p : FVec Ideal S100000x2 .f32) : FVec Ideal S100000x2 .f32 := Host.tanh p

/-- The classifier head: tanh(p) · Wc + bc, the bias a row [1, 4] repeated down the 100000 rows. -/
def head (p : FVec Ideal S100000x2 .f32) (w : FVec Ideal S2x4 .f32) (b : FVec Ideal S1x4 .f32) : FVec Ideal S100000x4 .f32 :=
  addf (Host.dotGeneral dot_S100000x2_S2x4_S100000x4_1_0_0_1_n_n none (Host.tanh p) w)
    (broadcastInDim S100000x4 ![0, 1] bcast_S1x4_S100000x4_0_1 b)

end Cert.Bridge

end
-- ==== Proof.Region0.lean ====
import proofs.«128120_j80625126080958_1_alg».proof.Proof.Gen.KernelIdeal.Frame
import proofs.«128120_j80625126080958_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

theorem pay0_apply (x0 : Vec Ideal S10000x128 .f32) (x1 : Vec Ideal S128x4 .f32) (j : S10000x4.Idx) :
    k0_pay1 x0 x1 j = ∑ k : dot_S10000x128_S128x4_S10000x4_1_0_0_1_n_n.contr.Idx,
      x0 (dot_S10000x128_S128x4_S10000x4_1_0_0_1_n_n.lhsIdx j k) * x1 (dot_S10000x128_S128x4_S10000x4_1_0_0_1_n_n.rhsIdx j k) := by
  unfold k0_pay1
  exact Ideal.matmul_constant_zero_apply _ none (truncf .bf16 x0 bitsLt_bf16_f32) (truncf .bf16 x1 bitsLt_bf16_f32) j

/-! ## The two contraction records, axis by axis

The block product contracts axis 1 of its left operand with axis 0 of its right operand; the whole-array product does
the same over the whole arrays. Each operand index is read coordinate by coordinate: the kept axis is the output
index's, the contracted axis is the contraction index's one coordinate. -/

theorem lhsK0_row (j : S10000x4.Idx) (k : dot_S10000x128_S128x4_S10000x4_1_0_0_1_n_n.contr.Idx) :
    (dot_S10000x128_S128x4_S10000x4_1_0_0_1_n_n.lhsIdx j k (0 : Fin 2)).val = (j (0 : Fin 2)).val := by
  unfold DotDims.lhsIdx
  rw [dif_neg (show ¬(0 : Fin S10000x128.rank) ∈ dot_S10000x128_S128x4_S10000x4_1_0_0_1_n_n.lhsBatch by decide),
    dif_pos (show (0 : Fin S10000x128.rank) ∈ dot_S10000x128_S128x4_S10000x4_1_0_0_1_n_n.lhsNonContracting by decide)]
  rfl

theorem lhsK0_contr (j : S10000x4.Idx) (k : dot_S10000x128_S128x4_S10000x4_1_0_0_1_n_n.contr.Idx) :
    (dot_S10000x128_S128x4_S10000x4_1_0_0_1_n_n.lhsIdx j k (1 : Fin 2)).val = (k ⟨0, by decide⟩).val :=
  DotDims.lhsIdx_val_of_single dot_S10000x128_S128x4_S10000x4_1_0_0_1_n_n (cl := (1 : Fin 2)) rfl j k

theorem rhsK0_contr (j : S10000x4.Idx) (k : dot_S10000x128_S128x4_S10000x4_1_0_0_1_n_n.contr.Idx) :
    (dot_S10000x128_S128x4_S10000x4_1_0_0_1_n_n.rhsIdx j k (0 : Fin 2)).val = (k ⟨0, by decide⟩).val :=
  DotDims.rhsIdx_val_of_single dot_S10000x128_S128x4_S10000x4_1_0_0_1_n_n (cr := (0 : Fin 2)) rfl j k

theorem rhsK0_col (j : S10000x4.Idx) (k : dot_S10000x128_S128x4_S10000x4_1_0_0_1_n_n.contr.Idx) :
    (dot_S10000x128_S128x4_S10000x4_1_0_0_1_n_n.rhsIdx j k (1 : Fin 2)).val = (j (1 : Fin 2)).val := by
  unfold DotDims.rhsIdx
  rw [dif_neg (show ¬(1 : Fin S128x4.rank) ∈ dot_S10000x128_S128x4_S10000x4_1_0_0_1_n_n.rhsBatch by decide),
    dif_pos (show (1 : Fin S128x4.rank) ∈ dot_S10000x128_S128x4_S10000x4_1_0_0_1_n_n.rhsNonContracting by decide)]
  rfl

theorem lhsR0_row (i : Cert.ReferenceIdeal.S100000x4.Idx) (k : Cert.ReferenceIdeal.dot_S100000x128_S128x4_S100000x4_1_0_0_1_n_n.contr.Idx) :
    (Cert.ReferenceIdeal.dot_S100000x128_S128x4_S100000x4_1_0_0_1_n_n.lhsIdx i k (0 : Fin 2)).val = (i (0 : Fin 2)).val := by
  unfold DotDims.lhsIdx
  rw [dif_neg (show ¬(0 : Fin Cert.ReferenceIdeal.S100000x128.rank) ∈ Cert.ReferenceIdeal.dot_S100000x128_S128x4_S100000x4_1_0_0_1_n_n.lhsBatch by decide),
    dif_pos (show (0 : Fin Cert.ReferenceIdeal.S100000x128.rank) ∈ Cert.ReferenceIdeal.dot_S100000x128_S128x4_S100000x4_1_0_0_1_n_n.lhsNonContracting by decide)]
  rfl

theorem lhsR0_contr (i : Cert.ReferenceIdeal.S100000x4.Idx) (k : Cert.ReferenceIdeal.dot_S100000x128_S128x4_S100000x4_1_0_0_1_n_n.contr.Idx) :
    (Cert.ReferenceIdeal.dot_S100000x128_S128x4_S100000x4_1_0_0_1_n_n.lhsIdx i k (1 : Fin 2)).val = (k ⟨0, by decide⟩).val :=
  DotDims.lhsIdx_val_of_single Cert.ReferenceIdeal.dot_S100000x128_S128x4_S100000x4_1_0_0_1_n_n (cl := (1 : Fin 2)) rfl i k

theorem rhsR0_contr (i : Cert.ReferenceIdeal.S100000x4.Idx) (k : Cert.ReferenceIdeal.dot_S100000x128_S128x4_S100000x4_1_0_0_1_n_n.contr.Idx) :
    (Cert.ReferenceIdeal.dot_S100000x128_S128x4_S100000x4_1_0_0_1_n_n.rhsIdx i k (0 : Fin 2)).val = (k ⟨0, by decide⟩).val :=
  DotDims.rhsIdx_val_of_single Cert.ReferenceIdeal.dot_S100000x128_S128x4_S100000x4_1_0_0_1_n_n (cr := (0 : Fin 2)) rfl i k

theorem rhsR0_col (i : Cert.ReferenceIdeal.S100000x4.Idx) (k : Cert.ReferenceIdeal.dot_S100000x128_S128x4_S100000x4_1_0_0_1_n_n.contr.Idx) :
    (Cert.ReferenceIdeal.dot_S100000x128_S128x4_S100000x4_1_0_0_1_n_n.rhsIdx i k (1 : Fin 2)).val = (i (1 : Fin 2)).val := by
  unfold DotDims.rhsIdx
  rw [dif_neg (show ¬(1 : Fin Cert.ReferenceIdeal.S128x4.rank) ∈ Cert.ReferenceIdeal.dot_S100000x128_S128x4_S100000x4_1_0_0_1_n_n.rhsBatch by decide),
    dif_pos (show (1 : Fin Cert.ReferenceIdeal.S128x4.rank) ∈ Cert.ReferenceIdeal.dot_S100000x128_S128x4_S100000x4_1_0_0_1_n_n.rhsNonContracting by decide)]
  rfl

/-- The block product's one contracted axis has 128 entries. -/
def eK0 : dot_S10000x128_S128x4_S10000x4_1_0_0_1_n_n.contr.Idx ≃ Fin 128 :=
  ValueIdx.contrEquiv1 dot_S10000x128_S128x4_S10000x4_1_0_0_1_n_n 128 rfl rfl

/-- The whole-array product's one contracted axis has the same 128 entries. -/
def eR0 : Cert.ReferenceIdeal.dot_S100000x128_S128x4_S100000x4_1_0_0_1_n_n.contr.Idx ≃ Fin 128 :=
  ValueIdx.contrEquiv1 Cert.ReferenceIdeal.dot_S100000x128_S128x4_S100000x4_1_0_0_1_n_n 128 rfl rfl

/-- The block index maps, decided over the ten grid points: the input rows and the output rows move together with the
    point, the weight block and every column block stay at 0. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The input block at point t is the input array read at the block's coordinates in the array. -/
theorem iblk0_0_apply (c : Dev nD) (t : Fin cfg0.N) (y : S10000x128.Idx) :
    iblk0 V c 0 t y = V c main_arg0 (((cfg0.win 0).blk t).view.emb y) := by
  unfold iblk0; rfl

/-- The weight block at point t is the weight array read at the block's coordinates in the array. -/
theorem iblk0_1_apply (c : Dev nD) (t : Fin cfg0.N) (y : S128x4.Idx) :
    iblk0 V c 1 t y = V c main_arg2 (((cfg0.win 1).blk t).view.emb y) := by
  unfold iblk0; rfl

/-! ## A block's coordinates in its array: block index × block size + the coordinate inside the block -/

/-- Input rows: point t's block starts at row 10000 · t. -/
theorem emb0_0_row (t : Fin cfg0.N) (y : S10000x128.Idx) :
    ((((cfg0.win 0).blk t).view.emb y) (0 : Fin 2)).val = t.val * 10000 + (y (0 : Fin 2)).val := by
  obtain ⟨e0, e1, e2, e3, e4, e5⟩ := idx_facts0 t
  show win0_0.index t (0 : Fin 2) * 10000 + 1 * (y (0 : Fin 2)).val = _
  omega

/-- Input columns: all 128 of them, from 0. -/
theorem emb0_0_col (t : Fin cfg0.N) (y : S10000x128.Idx) :
    ((((cfg0.win 0).blk t).view.emb y) (1 : Fin 2)).val = (y (1 : Fin 2)).val := by
  obtain ⟨e0, e1, e2, e3, e4, e5⟩ := idx_facts0 t
  show win0_0.index t (1 : Fin 2) * 128 + 1 * (y (1 : Fin 2)).val = _
  omega

/-- The weight block is the whole weight: rows from 0, -/
theorem emb0_1_row (t : Fin cfg0.N) (y : S128x4.Idx) :
    ((((cfg0.win 1).blk t).view.emb y) (0 : Fin 2)).val = (y (0 : Fin 2)).val := by
  obtain ⟨e0, e1, e2, e3, e4, e5⟩ := idx_facts0 t
  show win0_1.index t (0 : Fin 2) * 128 + 1 * (y (0 : Fin 2)).val = _
  omega

/-- and columns from 0. -/
theorem emb0_1_col (t : Fin cfg0.N) (y : S128x4.Idx) :
    ((((cfg0.win 1).blk t).view.emb y) (1 : Fin 2)).val = (y (1 : Fin 2)).val := by
  obtain ⟨e0, e1, e2, e3, e4, e5⟩ := idx_facts0 t
  show win0_1.index t (1 : Fin 2) * 4 + 1 * (y (1 : Fin 2)).val = _
  omega

/-- Output rows: point t's block starts at row 10000 · t. -/
theorem emb0_2_row (t : Fin cfg0.N) (y : S10000x4.Idx) :
    ((((cfg0.win 2).blk t).view.emb y) (0 : Fin 2)).val = t.val * 10000 + (y (0 : Fin 2)).val := by
  obtain ⟨e0, e1, e2, e3, e4, e5⟩ := idx_facts0 t
  show win0_2.index t (0 : Fin 2) * 10000 + 1 * (y (0 : Fin 2)).val = _
  omega

/-- Output columns: all 4 of them, from 0. -/
theorem emb0_2_col (t : Fin cfg0.N) (y : S10000x4.Idx) :
    ((((cfg0.win 2).blk t).view.emb y) (1 : Fin 2)).val = (y (1 : Fin 2)).val := by
  obtain ⟨e0, e1, e2, e3, e4, e5⟩ := idx_facts0 t
  show win0_2.index t (1 : Fin 2) * 4 + 1 * (y (1 : Fin 2)).val = _
  omega

/-! ## The two sums, term by term -/

/-- The block's contraction index, carried to the whole array's, keeps its one coordinate. -/
theorem carry0_val (k : dot_S10000x128_S128x4_S10000x4_1_0_0_1_n_n.contr.Idx) :
    ((eR0.symm (eK0 k)) ⟨0, by decide⟩).val = (k ⟨0, by decide⟩).val :=
  ValueIdx.contrEquiv1_symm_val Cert.ReferenceIdeal.dot_S100000x128_S128x4_S100000x4_1_0_0_1_n_n 128 rfl rfl (eK0 k)

/-- ONE OUTPUT ELEMENT: if the block's operand elements sit in the arrays (through e0, e1) where the whole-array product
    at i reads them, contraction index by contraction index, then the block's sum at j is the whole-array product at i. -/
theorem point0_eq (x : FVec Ideal Cert.ReferenceIdeal.S100000x128 .f32) (w : FVec Ideal Cert.ReferenceIdeal.S128x4 .f32)
    (e0 : S10000x128.Idx → Cert.ReferenceIdeal.S100000x128.Idx) (e1 : S128x4.Idx → Cert.ReferenceIdeal.S128x4.Idx)
    (j : S10000x4.Idx) (i : Cert.ReferenceIdeal.S100000x4.Idx)
    (hl : ∀ k, e0 (dot_S10000x128_S128x4_S10000x4_1_0_0_1_n_n.lhsIdx j k) = Cert.ReferenceIdeal.dot_S100000x128_S128x4_S100000x4_1_0_0_1_n_n.lhsIdx i (eR0.symm (eK0 k)))
    (hr : ∀ k, e1 (dot_S10000x128_S128x4_S10000x4_1_0_0_1_n_n.rhsIdx j k) = Cert.ReferenceIdeal.dot_S100000x128_S128x4_S100000x4_1_0_0_1_n_n.rhsIdx i (eR0.symm (eK0 k))) :
    ∑ k : dot_S10000x128_S128x4_S10000x4_1_0_0_1_n_n.contr.Idx, x (e0 (dot_S10000x128_S128x4_S10000x4_1_0_0_1_n_n.lhsIdx j k)) * w (e1 (dot_S10000x128_S128x4_S10000x4_1_0_0_1_n_n.rhsIdx j k)) = Cert.Bridge.proj x w i := by
  unfold Cert.Bridge.proj
  simp only [Host.dotGeneral]
  refine Eq.trans ?_ (Ideal.dotGeneral_apply Cert.ReferenceIdeal.dot_S100000x128_S128x4_S100000x4_1_0_0_1_n_n none _ x w i).symm
  refine Fintype.sum_equiv (eK0.trans eR0.symm) _ _ (fun k => ?_)
  show x (e0 (dot_S10000x128_S128x4_S10000x4_1_0_0_1_n_n.lhsIdx j k)) * w (e1 (dot_S10000x128_S128x4_S10000x4_1_0_0_1_n_n.rhsIdx j k))
    = x (Cert.ReferenceIdeal.dot_S100000x128_S128x4_S100000x4_1_0_0_1_n_n.lhsIdx i (eR0.symm (eK0 k))) * w (Cert.ReferenceIdeal.dot_S100000x128_S128x4_S100000x4_1_0_0_1_n_n.rhsIdx i (eR0.symm (eK0 k)))
  rw [hl k, hr k]

/-- The left operand's element: row 10000 · t + the block row, column the contraction coordinate, on both sides. -/
theorem lhs0_place (t : Fin cfg0.N) (j : S10000x4.Idx) (k : dot_S10000x128_S128x4_S10000x4_1_0_0_1_n_n.contr.Idx) :
    ((cfg0.win 0).blk t).view.emb (dot_S10000x128_S128x4_S10000x4_1_0_0_1_n_n.lhsIdx j k)
      = Cert.ReferenceIdeal.dot_S100000x128_S128x4_S100000x4_1_0_0_1_n_n.lhsIdx (((cfg0.win 2).blk t).view.emb j) (eR0.symm (eK0 k)) := by
  funext a; apply Fin.ext
  match a with
  | ⟨0, _⟩ =>
    exact ((emb0_0_row t _).trans (congrArg (fun n => t.val * 10000 + n) (lhsK0_row j k))).trans
      ((lhsR0_row _ _).trans (emb0_2_row t j)).symm
  | ⟨1, _⟩ =>
    exact ((emb0_0_col t _).trans (lhsK0_contr j k)).trans
      ((lhsR0_contr _ _).trans (carry0_val k)).symm

/-- The right operand's element: row the contraction coordinate, column the block column, on both sides. -/
theorem rhs0_place (t : Fin cfg0.N) (j : S10000x4.Idx) (k : dot_S10000x128_S128x4_S10000x4_1_0_0_1_n_n.contr.Idx) :
    ((cfg0.win 1).blk t).view.emb (dot_S10000x128_S128x4_S10000x4_1_0_0_1_n_n.rhsIdx j k)
      = Cert.ReferenceIdeal.dot_S100000x128_S128x4_S100000x4_1_0_0_1_n_n.rhsIdx (((cfg0.win 2).blk t).view.emb j) (eR0.symm (eK0 k)) := by
  funext a; apply Fin.ext
  match a with
  | ⟨0, _⟩ =>
    exact ((emb0_1_row t _).trans (rhsK0_contr j k)).trans
      ((rhsR0_contr _ _).trans (carry0_val k)).symm
  | ⟨1, _⟩ =>
    exact ((emb0_1_col t _).trans (rhsK0_col j k)).trans
      ((rhsR0_col _ _).trans (emb0_2_col t j)).symm

/-! ## What a point writes back, and the whole array -/

/-- WHAT POINT t WRITES BACK is block t of x · W₁ of the arrays as the region finds them. -/
theorem flushed0_eq (c : Dev nD) (t : Fin cfg0.N) :
    (dat0 V c).flushed 2 t = ((cfg0.win 2).blk t).view.read (Elt Ideal) (Cert.Bridge.proj (V c main_arg0) (V c main_arg2)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x4) hz0]
  funext j
  show k0_pay1 (iblk0 V c 0 t) (iblk0 V c 1 t) j = Cert.Bridge.proj (V c main_arg0) (V c main_arg2) (((cfg0.win 2).blk t).view.emb j)
  refine (pay0_apply _ _ j).trans ?_
  simp only [iblk0_0_apply, iblk0_1_apply]
  exact point0_eq (V c main_arg0) (V c main_arg2) (((cfg0.win 0).blk t).view.emb) (((cfg0.win 1).blk t).view.emb) j
    (((cfg0.win 2).blk t).view.emb j) (lhs0_place t j) (rhs0_place t j)

/-- An index of the output array is in point t's block iff each coordinate is in the block's range on its axis. -/
theorem mem_blk0 (t : Fin cfg0.N) (i : Cert.ReferenceIdeal.S100000x4.Idx) :
    i ∈ ((cfg0.win 2).blk t).view.set ↔ ∀ a : Fin 2, win0_2.index t a * S10000x4.size a ≤ (i a).val ∧ (i a).val < win0_2.index t a * S10000x4.size a + S10000x4.size a := by
  show i ∈ ((View.whole main_v32).slice (win0_2.rect t)).set ↔ _
  rw [View.set_slice_whole, Rect.mem_set_unit]
  exact Iff.rfl

/-- Every block of rows is some point's. -/
theorem idx_onto0 : ∀ q : Fin 10, ∃ t : Fin cfg0.N, win0_2.index t = ![q.val, 0] :=
  (by decide +kernel : ∀ q : Fin 10, ∃ t : Fin grid0.N, win0_2.index t = ![q.val, 0])

/-- THE COVER: row r of the output lies in the block of the point r / 10000, whose write-back happens. -/
theorem cover0 (i : Cert.ReferenceIdeal.S100000x4.Idx) :
    ∃ t : Fin cfg0.N, (cfg0.win 2).flush t = true ∧ i ∈ ((cfg0.win 2).blk t).view.set := by
  have hi0 : (i 0).val < 100000 := (i 0).isLt
  have hi1 : (i 1).val < 4 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 4 ≤ (i 1).val ∧ (i 1).val < win0_2.index t (1 : Fin 2) * 4 + 4; omega

/-- THE ARRAY after the region: x · W₁ of the arrays as the region finds them, every row written once. -/
theorem final0 (c : Dev nD) : (dat0 V c).arrAt 2 cfg0.N = Cert.Bridge.proj (V c main_arg0) (V c main_arg2) :=
  (dat0 V c).arrAt_eq_of_cover 2 (Cert.Bridge.proj (V c main_arg0) (V c main_arg2)) (fun t _ => flushed0_eq V c t) cover0

end Cert.KernelIdeal.Val

end
-- ==== Proof.Region1.lean ====
import proofs.«128120_j80625126080958_1_alg».proof.Proof.Gen.KernelIdeal.Frame
import proofs.«128120_j80625126080958_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! Region 1: every grid point multiplies a block of 5000 rows of tanh(p) by the whole 4 × 4 weight, so the rows the
    points write back are, together, the rows of the whole product tanh(p) · W. -/

theorem hz1 : (![0, 0] : Fin 2 → Nat) = fun _ => 0 := funext fun a => by fin_cases a <;> rfl

/-! ## The block product's operand indices, axis by axis: the row of the left operand is the output's row, its column
    the contracted coordinate; the row of the right operand is the contracted coordinate, its column the output's. -/

theorem blk1_lhs_0 (j : S5000x4.Idx) (q : dot_S5000x4_S4x4_S5000x4_1_0_0_1_n_n.contr.Idx) :
    (dot_S5000x4_S4x4_S5000x4_1_0_0_1_n_n.lhsIdx j q 0).val = (j 0).val := by
  unfold DotDims.lhsIdx
  rw [dif_neg (show ¬(0 : Fin S5000x4.rank) ∈ dot_S5000x4_S4x4_S5000x4_1_0_0_1_n_n.lhsBatch by decide), dif_pos (show (0 : Fin S5000x4.rank) ∈ dot_S5000x4_S4x4_S5000x4_1_0_0_1_n_n.lhsNonContracting by decide)]
  rfl
theorem blk1_lhs_1 (j : S5000x4.Idx) (q : dot_S5000x4_S4x4_S5000x4_1_0_0_1_n_n.contr.Idx) :
    (dot_S5000x4_S4x4_S5000x4_1_0_0_1_n_n.lhsIdx j q 1).val = (q ⟨0, by decide⟩).val :=
  dot_S5000x4_S4x4_S5000x4_1_0_0_1_n_n.lhsIdx_val_of_single rfl j q
theorem blk1_rhs_0 (j : S5000x4.Idx) (q : dot_S5000x4_S4x4_S5000x4_1_0_0_1_n_n.contr.Idx) :
    (dot_S5000x4_S4x4_S5000x4_1_0_0_1_n_n.rhsIdx j q 0).val = (q ⟨0, by decide⟩).val :=
  dot_S5000x4_S4x4_S5000x4_1_0_0_1_n_n.rhsIdx_val_of_single rfl j q
theorem blk1_rhs_1 (j : S5000x4.Idx) (q : dot_S5000x4_S4x4_S5000x4_1_0_0_1_n_n.contr.Idx) :
    (dot_S5000x4_S4x4_S5000x4_1_0_0_1_n_n.rhsIdx j q 1).val = (j 1).val := by
  unfold DotDims.rhsIdx
  rw [dif_neg (show ¬(1 : Fin S4x4.rank) ∈ dot_S5000x4_S4x4_S5000x4_1_0_0_1_n_n.rhsBatch by decide), dif_pos (show (1 : Fin S4x4.rank) ∈ dot_S5000x4_S4x4_S5000x4_1_0_0_1_n_n.rhsNonContracting by decide)]
  rfl

/-- Row `j 0`, column `k` of a 5000 × 4 block. -/
abbrev blk1_l (j : S5000x4.Idx) (k : Fin 4) : S5000x4.Idx := fun a => match a with
  | ⟨0, _⟩ => ⟨(j 0).val, (j 0).isLt⟩
  | ⟨1, _⟩ => ⟨k.val, k.isLt⟩
/-- Row `k`, column `j 1` of the 4 × 4 weight. -/
abbrev blk1_r (j : S5000x4.Idx) (k : Fin 4) : S4x4.Idx := fun a => match a with
  | ⟨0, _⟩ => ⟨k.val, k.isLt⟩
  | ⟨1, _⟩ => ⟨(j 1).val, (j 1).isLt⟩

/-- The body's payload at an index: the sum over the four contracted coordinates of tanh of the left block's entry
    times the weight's entry (the narrowing to bf16 is the identity on the extended reals; the accumulator is zero). -/
theorem pay1_apply (x0 : Vec Ideal S5000x4 .f32) (x1 : Vec Ideal S4x4 .f32) (j : S5000x4.Idx) :
    k1_pay1 x0 x1 j = ∑ k : Fin 4, Ideal.tanh (x0 (blk1_l j k)) * x1 (blk1_r j k) := by
  unfold k1_pay1
  rw [shapeCast_self]
  refine (Ideal.matmul_constant_zero_apply dot_S5000x4_S4x4_S5000x4_1_0_0_1_n_n none (truncf .bf16 (tanh x0) bitsLt_bf16_f32) (truncf .bf16 x1 bitsLt_bf16_f32) j).trans ?_
  rw [← Equiv.sum_comp (ValueIdx.contrEquiv1 dot_S5000x4_S4x4_S5000x4_1_0_0_1_n_n 4 rfl rfl).symm]
  refine Finset.sum_congr rfl fun k _ => ?_
  have hk := ValueIdx.contrEquiv1_symm_val dot_S5000x4_S4x4_S5000x4_1_0_0_1_n_n 4 rfl rfl k
  have el : dot_S5000x4_S4x4_S5000x4_1_0_0_1_n_n.lhsIdx j ((ValueIdx.contrEquiv1 dot_S5000x4_S4x4_S5000x4_1_0_0_1_n_n 4 rfl rfl).symm k) = blk1_l j k := funext fun a => Fin.ext (by
    match a with
    | ⟨0, _⟩ => exact blk1_lhs_0 _ _
    | ⟨1, _⟩ => exact (blk1_lhs_1 _ _).trans hk)
  have er : dot_S5000x4_S4x4_S5000x4_1_0_0_1_n_n.rhsIdx j ((ValueIdx.contrEquiv1 dot_S5000x4_S4x4_S5000x4_1_0_0_1_n_n 4 rfl rfl).symm k) = blk1_r j k := funext fun a => Fin.ext (by
    match a with
    | ⟨0, _⟩ => exact (blk1_rhs_0 _ _).trans hk
    | ⟨1, _⟩ => exact blk1_rhs_1 _ _)
  rw [el, er]
  rfl

/-! ## The whole product's operand indices, axis by axis, as for the block's. -/

theorem arr1_lhs_0 (i : Cert.ReferenceIdeal.S100000x4.Idx) (q : Cert.ReferenceIdeal.dot_S100000x4_S4x4_S100000x4_1_0_0_1_n_n.contr.Idx) :
    (Cert.ReferenceIdeal.dot_S100000x4_S4x4_S100000x4_1_0_0_1_n_n.lhsIdx i q 0).val = (i 0).val := by
  unfold DotDims.lhsIdx
  rw [dif_neg (show ¬(0 : Fin Cert.ReferenceIdeal.S100000x4.rank) ∈ Cert.ReferenceIdeal.dot_S100000x4_S4x4_S100000x4_1_0_0_1_n_n.lhsBatch by decide), dif_pos (show (0 : Fin Cert.ReferenceIdeal.S100000x4.rank) ∈ Cert.ReferenceIdeal.dot_S100000x4_S4x4_S100000x4_1_0_0_1_n_n.lhsNonContracting by decide)]
  rfl
theorem arr1_lhs_1 (i : Cert.ReferenceIdeal.S100000x4.Idx) (q : Cert.ReferenceIdeal.dot_S100000x4_S4x4_S100000x4_1_0_0_1_n_n.contr.Idx) :
    (Cert.ReferenceIdeal.dot_S100000x4_S4x4_S100000x4_1_0_0_1_n_n.lhsIdx i q 1).val = (q ⟨0, by decide⟩).val :=
  Cert.ReferenceIdeal.dot_S100000x4_S4x4_S100000x4_1_0_0_1_n_n.lhsIdx_val_of_single rfl i q
theorem arr1_rhs_0 (i : Cert.ReferenceIdeal.S100000x4.Idx) (q : Cert.ReferenceIdeal.dot_S100000x4_S4x4_S100000x4_1_0_0_1_n_n.contr.Idx) :
    (Cert.ReferenceIdeal.dot_S100000x4_S4x4_S100000x4_1_0_0_1_n_n.rhsIdx i q 0).val = (q ⟨0, by decide⟩).val :=
  Cert.ReferenceIdeal.dot_S100000x4_S4x4_S100000x4_1_0_0_1_n_n.rhsIdx_val_of_single rfl i q
theorem arr1_rhs_1 (i : Cert.ReferenceIdeal.S100000x4.Idx) (q : Cert.ReferenceIdeal.dot_S100000x4_S4x4_S100000x4_1_0_0_1_n_n.contr.Idx) :
    (Cert.ReferenceIdeal.dot_S100000x4_S4x4_S100000x4_1_0_0_1_n_n.rhsIdx i q 1).val = (i 1).val := by
  unfold DotDims.rhsIdx
  rw [dif_neg (show ¬(1 : Fin Cert.ReferenceIdeal.S4x4.rank) ∈ Cert.ReferenceIdeal.dot_S100000x4_S4x4_S100000x4_1_0_0_1_n_n.rhsBatch by decide), dif_pos (show (1 : Fin Cert.ReferenceIdeal.S4x4.rank) ∈ Cert.ReferenceIdeal.dot_S100000x4_S4x4_S100000x4_1_0_0_1_n_n.rhsNonContracting by decide)]
  rfl

/-- Row `i 0`, column `k` of the 100000 × 4 array. -/
abbrev arr1_l (i : Cert.ReferenceIdeal.S100000x4.Idx) (k : Fin 4) : Cert.ReferenceIdeal.S100000x4.Idx := fun a => match a with
  | ⟨0, _⟩ => ⟨(i 0).val, (i 0).isLt⟩
  | ⟨1, _⟩ => ⟨k.val, k.isLt⟩
/-- Row `k`, column `i 1` of the 4 × 4 weight. -/
abbrev arr1_r (i : Cert.ReferenceIdeal.S100000x4.Idx) (k : Fin 4) : Cert.ReferenceIdeal.S4x4.Idx := fun a => match a with
  | ⟨0, _⟩ => ⟨k.val, k.isLt⟩
  | ⟨1, _⟩ => ⟨(i 1).val, (i 1).isLt⟩

/-- The whole product tanh(p) · W at an index: the same sum over the four contracted coordinates. -/
theorem tmm4_apply (p : FVec Ideal Cert.ReferenceIdeal.S100000x4 .f32) (w : FVec Ideal Cert.ReferenceIdeal.S4x4 .f32) (i : Cert.ReferenceIdeal.S100000x4.Idx) :
    Cert.Bridge.tmm4 p w i = ∑ k : Fin 4, Ideal.tanh (p (arr1_l i k)) * w (arr1_r i k) := by
  unfold Cert.Bridge.tmm4
  simp only [Host.dotGeneral]
  rw [Ideal.dotGeneral_apply, ← Equiv.sum_comp (ValueIdx.contrEquiv1 Cert.ReferenceIdeal.dot_S100000x4_S4x4_S100000x4_1_0_0_1_n_n 4 rfl rfl).symm]
  refine Finset.sum_congr rfl fun k _ => ?_
  have hk := ValueIdx.contrEquiv1_symm_val Cert.ReferenceIdeal.dot_S100000x4_S4x4_S100000x4_1_0_0_1_n_n 4 rfl rfl k
  have el : Cert.ReferenceIdeal.dot_S100000x4_S4x4_S100000x4_1_0_0_1_n_n.lhsIdx i ((ValueIdx.contrEquiv1 Cert.ReferenceIdeal.dot_S100000x4_S4x4_S100000x4_1_0_0_1_n_n 4 rfl rfl).symm k) = arr1_l i k := funext fun a => Fin.ext (by
    match a with
    | ⟨0, _⟩ => exact arr1_lhs_0 _ _
    | ⟨1, _⟩ => exact (arr1_lhs_1 _ _).trans hk)
  have er : Cert.ReferenceIdeal.dot_S100000x4_S4x4_S100000x4_1_0_0_1_n_n.rhsIdx i ((ValueIdx.contrEquiv1 Cert.ReferenceIdeal.dot_S100000x4_S4x4_S100000x4_1_0_0_1_n_n 4 rfl rfl).symm k) = arr1_r i k := funext fun a => Fin.ext (by
    match a with
    | ⟨0, _⟩ => exact (arr1_rhs_0 _ _).trans hk
    | ⟨1, _⟩ => exact arr1_rhs_1 _ _)
  rw [el, er]
  rfl

/-! ## From the blocks to the array -/

/-- The printed index maps, decided over the 20 grid points: the left operand's and the output's block rows are the
    point's number, every other block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` reads the region-entry array through the block's rectangle. -/
theorem iblk1_0_apply (c : Dev nD) (t : Fin cfg1.N) (y : S5000x4.Idx) :
    iblk1 V c 0 t y = V c main_v48 (((cfg1.win 0).blk t).view.emb y) := by
  unfold iblk1; rfl
/-- The weight's block at point `t` reads the region-entry weight through the block's rectangle. -/
theorem iblk1_1_apply (c : Dev nD) (t : Fin cfg1.N) (y : S4x4.Idx) :
    iblk1 V c 1 t y = V c main_arg4 (((cfg1.win 1).blk t).view.emb y) := by
  unfold iblk1; rfl

/-- WHAT POINT `t` WRITES BACK is block `t` of the whole product tanh(p) · W of the region-entry arrays: row `r` of
    the block is row `5000 t + r` of the array on both sides, and the contraction runs over the same four coordinates. -/
theorem flushed1_eq (c : Dev nD) (t : Fin cfg1.N) :
    (dat1 V c).flushed 2 t = ((cfg1.win 2).blk t).view.read (Elt Ideal) (Cert.Bridge.tmm4 (V c main_v48) (V c main_arg4)) := by
  show (cfg1.win 2).cut (grid1.coords t) ((dat1 V c).after 2 t) = _
  rw [after1_2]
  unfold out1_2
  rw [View.canon_unit_zero hz1]
  simp only [View.ld_unit_zero (S := S5000x4) hz1, View.ld_unit_zero (S := S4x4) hz1]
  funext j
  show k1_pay1 (iblk1 V c 0 t) (iblk1 V c 1 t) j = Cert.Bridge.tmm4 (V c main_v48) (V c main_arg4) (((cfg1.win 2).blk t).view.emb j)
  refine (pay1_apply (iblk1 V c 0 t) (iblk1 V c 1 t) j).trans (Eq.trans ?_ (tmm4_apply (V c main_v48) (V c main_arg4) (((cfg1.win 2).blk t).view.emb j)).symm)
  obtain ⟨e0, e1, e2, e3, e4, e5⟩ := idx_facts1 t
  refine Finset.sum_congr rfl fun k _ => ?_
  have hj0 : (j 0).val < 5000 := (j 0).isLt
  have hj1 : (j 1).val < 4 := (j 1).isLt
  have hk : k.val < 4 := k.isLt
  have h0 : iblk1 V c 0 t (blk1_l j k) = V c main_v48 (arr1_l (((cfg1.win 2).blk t).view.emb j) k) := by
    rw [iblk1_0_apply]
    refine congrArg (V c main_v48) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 4 + 1 * k.val = k.val; omega
  have h1 : iblk1 V c 1 t (blk1_r j k) = V c main_arg4 (arr1_r (((cfg1.win 2).blk t).view.emb j) k) := by
    rw [iblk1_1_apply]
    refine congrArg (V c main_arg4) ?_
    funext a; apply Fin.ext
    match a with
    | ⟨0, _⟩ => show win1_1.index t (0 : Fin 2) * 4 + 1 * k.val = k.val; omega
    | ⟨1, _⟩ => show win1_1.index t (1 : Fin 2) * 4 + 1 * (j 1).val = win1_2.index t (1 : Fin 2) * 4 + 1 * (j 1).val; omega
  rw [h0, h1]

/-- An index of the array is in point `t`'s block iff each coordinate is in the block's range on its axis. -/
theorem mem_blk1 (t : Fin cfg1.N) (i : S100000x4.Idx) :
    i ∈ ((cfg1.win 2).blk t).view.set ↔ ∀ a : Fin 2, win1_2.index t a * S5000x4.size a ≤ (i a).val ∧ (i a).val < win1_2.index t a * S5000x4.size a + S5000x4.size a := by
  show i ∈ ((View.whole main_v49).slice (win1_2.rect t)).set ↔ _
  rw [View.set_slice_whole, Rect.mem_set_unit]
  exact Iff.rfl

/-- THE BLOCKS TILE THE ARRAY: row `r` lies in the block of point `r / 5000`, all four columns in every block. -/
theorem cover1 (i : S100000x4.Idx) : ∃ t : Fin cfg1.N, (cfg1.win 2).flush t = true ∧ i ∈ ((cfg1.win 2).blk t).view.set := by
  have hi0 : (i 0).val < 100000 := (i 0).isLt
  have hi1 : (i 1).val < 4 := (i 1).isLt
  have ht : (i 0).val / 5000 < 20 := by omega
  obtain ⟨-, -, -, -, e4, e5⟩ := idx_facts1 ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk1]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
  | ⟨1, _⟩ => show win1_2.index ⟨(i 0).val / 5000, ht⟩ (1 : Fin 2) * 4 ≤ (i 1).val ∧ (i 1).val < win1_2.index ⟨(i 0).val / 5000, ht⟩ (1 : Fin 2) * 4 + 4; omega

/-- THE ARRAY after the region: the whole product tanh(p) · W of the region-entry arrays. -/
theorem final1 (c : Dev nD) : (dat1 V c).arrAt 2 cfg1.N = Cert.Bridge.tmm4 (V c main_v48) (V c main_arg4) :=
  (dat1 V c).arrAt_eq_of_cover 2 (Cert.Bridge.tmm4 (V c main_v48) (V c main_arg4)) (fun t _ => flushed1_eq V c t) (fun i => cover1 i)

end Cert.KernelIdeal.Val

end
-- ==== Proof.Region2.lean ====
import proofs.«128120_j80625126080958_1_alg».proof.Proof.Gen.KernelIdeal.Frame
import proofs.«128120_j80625126080958_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The block product read at an index: the sum over the one contracted axis of tanh of the left block's entry times
    the right block's entry (the cast to the same shape and the format changes are the identity). -/
theorem pay2_apply (x0 : Vec Ideal S5000x4 .f32) (x1 : Vec Ideal S4x2 .f32) (j : S5000x2.Idx) :
    k2_pay1 x0 x1 j = ∑ k : dot_S5000x4_S4x2_S5000x2_1_0_0_1_n_n.contr.Idx,
      Ideal.tanh (x0 (dot_S5000x4_S4x2_S5000x2_1_0_0_1_n_n.lhsIdx j k)) * x1 (dot_S5000x4_S4x2_S5000x2_1_0_0_1_n_n.rhsIdx j k) := by
  unfold k2_pay1
  rw [shapeCast_self]
  exact Ideal.matmul_constant_zero_apply _ none (truncf .bf16 (tanh x0) bitsLt_bf16_f32) (truncf .bf16 x1 bitsLt_bf16_f32) j

/-- The whole-array function read at an index: the same sum over the whole arrays' record. -/
theorem tmm2_apply (p : FVec Ideal Cert.ReferenceIdeal.S100000x4 .f32) (w : FVec Ideal Cert.ReferenceIdeal.S4x2 .f32) (i : Cert.ReferenceIdeal.S100000x2.Idx) :
    Cert.Bridge.tmm2 p w i = ∑ k : Cert.ReferenceIdeal.dot_S100000x4_S4x2_S100000x2_1_0_0_1_n_n.contr.Idx,
      Ideal.tanh (p (Cert.ReferenceIdeal.dot_S100000x4_S4x2_S100000x2_1_0_0_1_n_n.lhsIdx i k)) * w (Cert.ReferenceIdeal.dot_S100000x4_S4x2_S100000x2_1_0_0_1_n_n.rhsIdx i k) := by
  unfold Cert.Bridge.tmm2
  simp only [Host.dotGeneral]
  exact Ideal.dotGeneral_apply _ none _ (Host.tanh p) w i

/-! The two records of the product: the block's (5000 x 4 by 4 x 2) and the whole arrays' (100000 x 4 by 4 x 2). Each operand
    index, axis by axis: the row of the left operand is the output's row, its column the contraction position; the row
    of the right operand is the contraction position, its column the output's column. -/

theorem lhsK2_row (j : S5000x2.Idx) (k : dot_S5000x4_S4x2_S5000x2_1_0_0_1_n_n.contr.Idx) :
    (dot_S5000x4_S4x2_S5000x2_1_0_0_1_n_n.lhsIdx j k (0 : Fin 2)).val = (j (0 : Fin 2)).val := by
  unfold DotDims.lhsIdx
  rw [dif_neg (show ¬(0 : Fin S5000x4.rank) ∈ dot_S5000x4_S4x2_S5000x2_1_0_0_1_n_n.lhsBatch by decide),
    dif_pos (show (0 : Fin S5000x4.rank) ∈ dot_S5000x4_S4x2_S5000x2_1_0_0_1_n_n.lhsNonContracting by decide)]
  rfl

theorem lhsK2_col (j : S5000x2.Idx) (k : dot_S5000x4_S4x2_S5000x2_1_0_0_1_n_n.contr.Idx) (h : 0 < dot_S5000x4_S4x2_S5000x2_1_0_0_1_n_n.contr.rank) :
    (dot_S5000x4_S4x2_S5000x2_1_0_0_1_n_n.lhsIdx j k (1 : Fin 2)).val = (k ⟨0, h⟩).val :=
  DotDims.lhsIdx_val_of_single (d := dot_S5000x4_S4x2_S5000x2_1_0_0_1_n_n) (cl := (1 : Fin 2)) rfl j k

theorem rhsK2_row (j : S5000x2.Idx) (k : dot_S5000x4_S4x2_S5000x2_1_0_0_1_n_n.contr.Idx) (h : 0 < dot_S5000x4_S4x2_S5000x2_1_0_0_1_n_n.contr.rank) :
    (dot_S5000x4_S4x2_S5000x2_1_0_0_1_n_n.rhsIdx j k (0 : Fin 2)).val = (k ⟨0, h⟩).val :=
  DotDims.rhsIdx_val_of_single (d := dot_S5000x4_S4x2_S5000x2_1_0_0_1_n_n) (cr := (0 : Fin 2)) rfl j k

theorem rhsK2_col (j : S5000x2.Idx) (k : dot_S5000x4_S4x2_S5000x2_1_0_0_1_n_n.contr.Idx) :
    (dot_S5000x4_S4x2_S5000x2_1_0_0_1_n_n.rhsIdx j k (1 : Fin 2)).val = (j (1 : Fin 2)).val := by
  unfold DotDims.rhsIdx
  rw [dif_neg (show ¬(1 : Fin S4x2.rank) ∈ dot_S5000x4_S4x2_S5000x2_1_0_0_1_n_n.rhsBatch by decide),
    dif_pos (show (1 : Fin S4x2.rank) ∈ dot_S5000x4_S4x2_S5000x2_1_0_0_1_n_n.rhsNonContracting by decide)]
  rfl

theorem lhsR2_row (j : Cert.ReferenceIdeal.S100000x2.Idx) (k : Cert.ReferenceIdeal.dot_S100000x4_S4x2_S100000x2_1_0_0_1_n_n.contr.Idx) :
    (Cert.ReferenceIdeal.dot_S100000x4_S4x2_S100000x2_1_0_0_1_n_n.lhsIdx j k (0 : Fin 2)).val = (j (0 : Fin 2)).val := by
  unfold DotDims.lhsIdx
  rw [dif_neg (show ¬(0 : Fin Cert.ReferenceIdeal.S100000x4.rank) ∈ Cert.ReferenceIdeal.dot_S100000x4_S4x2_S100000x2_1_0_0_1_n_n.lhsBatch by decide),
    dif_pos (show (0 : Fin Cert.ReferenceIdeal.S100000x4.rank) ∈ Cert.ReferenceIdeal.dot_S100000x4_S4x2_S100000x2_1_0_0_1_n_n.lhsNonContracting by decide)]
  rfl

theorem lhsR2_col (j : Cert.ReferenceIdeal.S100000x2.Idx) (k : Cert.ReferenceIdeal.dot_S100000x4_S4x2_S100000x2_1_0_0_1_n_n.contr.Idx) (h : 0 < Cert.ReferenceIdeal.dot_S100000x4_S4x2_S100000x2_1_0_0_1_n_n.contr.rank) :
    (Cert.ReferenceIdeal.dot_S100000x4_S4x2_S100000x2_1_0_0_1_n_n.lhsIdx j k (1 : Fin 2)).val = (k ⟨0, h⟩).val :=
  DotDims.lhsIdx_val_of_single (d := Cert.ReferenceIdeal.dot_S100000x4_S4x2_S100000x2_1_0_0_1_n_n) (cl := (1 : Fin 2)) rfl j k

theorem rhsR2_row (j : Cert.ReferenceIdeal.S100000x2.Idx) (k : Cert.ReferenceIdeal.dot_S100000x4_S4x2_S100000x2_1_0_0_1_n_n.contr.Idx) (h : 0 < Cert.ReferenceIdeal.dot_S100000x4_S4x2_S100000x2_1_0_0_1_n_n.contr.rank) :
    (Cert.ReferenceIdeal.dot_S100000x4_S4x2_S100000x2_1_0_0_1_n_n.rhsIdx j k (0 : Fin 2)).val = (k ⟨0, h⟩).val :=
  DotDims.rhsIdx_val_of_single (d := Cert.ReferenceIdeal.dot_S100000x4_S4x2_S100000x2_1_0_0_1_n_n) (cr := (0 : Fin 2)) rfl j k

theorem rhsR2_col (j : Cert.ReferenceIdeal.S100000x2.Idx) (k : Cert.ReferenceIdeal.dot_S100000x4_S4x2_S100000x2_1_0_0_1_n_n.contr.Idx) :
    (Cert.ReferenceIdeal.dot_S100000x4_S4x2_S100000x2_1_0_0_1_n_n.rhsIdx j k (1 : Fin 2)).val = (j (1 : Fin 2)).val := by
  unfold DotDims.rhsIdx
  rw [dif_neg (show ¬(1 : Fin Cert.ReferenceIdeal.S4x2.rank) ∈ Cert.ReferenceIdeal.dot_S100000x4_S4x2_S100000x2_1_0_0_1_n_n.rhsBatch by decide),
    dif_pos (show (1 : Fin Cert.ReferenceIdeal.S4x2.rank) ∈ Cert.ReferenceIdeal.dot_S100000x4_S4x2_S100000x2_1_0_0_1_n_n.rhsNonContracting by decide)]
  rfl

/-- The two contraction index sets are one axis of extent 4 each; through that axis the block's sum is the whole
    arrays' sum, when the block's entries are the arrays' entries at the block's place: rows moved down by n blocks of
    5000, columns kept, the right operand whole. -/
theorem sum_reindex2 (P : FVec Ideal Cert.ReferenceIdeal.S100000x4 .f32) (W : FVec Ideal Cert.ReferenceIdeal.S4x2 .f32)
    (X0 : Vec Ideal S5000x4 .f32) (X1 : Vec Ideal S4x2 .f32)
    (e0 : S5000x4.Idx → Cert.ReferenceIdeal.S100000x4.Idx) (e1 : S4x2.Idx → Cert.ReferenceIdeal.S4x2.Idx)
    (y : S5000x2.Idx) (i : Cert.ReferenceIdeal.S100000x2.Idx) (n : Nat)
    (h0 : ∀ z, X0 z = P (e0 z)) (h1 : ∀ z, X1 z = W (e1 z))
    (he00 : ∀ z, (e0 z (0 : Fin 2)).val = n * 5000 + (z (0 : Fin 2)).val) (he01 : ∀ z, (e0 z (1 : Fin 2)).val = (z (1 : Fin 2)).val)
    (he10 : ∀ z, (e1 z (0 : Fin 2)).val = (z (0 : Fin 2)).val) (he11 : ∀ z, (e1 z (1 : Fin 2)).val = (z (1 : Fin 2)).val)
    (hi0 : (i (0 : Fin 2)).val = n * 5000 + (y (0 : Fin 2)).val) (hi1 : (i (1 : Fin 2)).val = (y (1 : Fin 2)).val) :
    (∑ k : dot_S5000x4_S4x2_S5000x2_1_0_0_1_n_n.contr.Idx,
      Ideal.tanh (X0 (dot_S5000x4_S4x2_S5000x2_1_0_0_1_n_n.lhsIdx y k)) * X1 (dot_S5000x4_S4x2_S5000x2_1_0_0_1_n_n.rhsIdx y k))
    = ∑ k : Cert.ReferenceIdeal.dot_S100000x4_S4x2_S100000x2_1_0_0_1_n_n.contr.Idx,
      Ideal.tanh (P (Cert.ReferenceIdeal.dot_S100000x4_S4x2_S100000x2_1_0_0_1_n_n.lhsIdx i k)) * W (Cert.ReferenceIdeal.dot_S100000x4_S4x2_S100000x2_1_0_0_1_n_n.rhsIdx i k) := by
  refine Fintype.sum_equiv ((ValueIdx.contrEquiv1 dot_S5000x4_S4x2_S5000x2_1_0_0_1_n_n 4 rfl rfl).trans
    (ValueIdx.contrEquiv1 Cert.ReferenceIdeal.dot_S100000x4_S4x2_S100000x2_1_0_0_1_n_n 4 rfl rfl).symm) _ _ (fun k => ?_)
  have hE : ((((ValueIdx.contrEquiv1 dot_S5000x4_S4x2_S5000x2_1_0_0_1_n_n 4 rfl rfl).trans
      (ValueIdx.contrEquiv1 Cert.ReferenceIdeal.dot_S100000x4_S4x2_S100000x2_1_0_0_1_n_n 4 rfl rfl).symm) k) ⟨0, by decide⟩ : ℕ)
      = (k ⟨0, by decide⟩).val :=
    ValueIdx.contrEquiv1_symm_val Cert.ReferenceIdeal.dot_S100000x4_S4x2_S100000x2_1_0_0_1_n_n 4 rfl rfl _
  have a0 : (e0 (dot_S5000x4_S4x2_S5000x2_1_0_0_1_n_n.lhsIdx y k) (0 : Fin 2)).val
      = (Cert.ReferenceIdeal.dot_S100000x4_S4x2_S100000x2_1_0_0_1_n_n.lhsIdx i (((ValueIdx.contrEquiv1 dot_S5000x4_S4x2_S5000x2_1_0_0_1_n_n 4 rfl rfl).trans
      (ValueIdx.contrEquiv1 Cert.ReferenceIdeal.dot_S100000x4_S4x2_S100000x2_1_0_0_1_n_n 4 rfl rfl).symm) k) (0 : Fin 2)).val := by
    rw [he00, lhsK2_row, lhsR2_row, hi0]
  have a1 : (e0 (dot_S5000x4_S4x2_S5000x2_1_0_0_1_n_n.lhsIdx y k) (1 : Fin 2)).val
      = (Cert.ReferenceIdeal.dot_S100000x4_S4x2_S100000x2_1_0_0_1_n_n.lhsIdx i (((ValueIdx.contrEquiv1 dot_S5000x4_S4x2_S5000x2_1_0_0_1_n_n 4 rfl rfl).trans
      (ValueIdx.contrEquiv1 Cert.ReferenceIdeal.dot_S100000x4_S4x2_S100000x2_1_0_0_1_n_n 4 rfl rfl).symm) k) (1 : Fin 2)).val := by
    rw [he01, lhsK2_col y k (by decide), lhsR2_col i _ (by decide), hE]
  have b0 : (e1 (dot_S5000x4_S4x2_S5000x2_1_0_0_1_n_n.rhsIdx y k) (0 : Fin 2)).val
      = (Cert.ReferenceIdeal.dot_S100000x4_S4x2_S100000x2_1_0_0_1_n_n.rhsIdx i (((ValueIdx.contrEquiv1 dot_S5000x4_S4x2_S5000x2_1_0_0_1_n_n 4 rfl rfl).trans
      (ValueIdx.contrEquiv1 Cert.ReferenceIdeal.dot_S100000x4_S4x2_S100000x2_1_0_0_1_n_n 4 rfl rfl).symm) k) (0 : Fin 2)).val := by
    rw [he10, rhsK2_row y k (by decide), rhsR2_row i _ (by decide), hE]
  have b1 : (e1 (dot_S5000x4_S4x2_S5000x2_1_0_0_1_n_n.rhsIdx y k) (1 : Fin 2)).val
      = (Cert.ReferenceIdeal.dot_S100000x4_S4x2_S100000x2_1_0_0_1_n_n.rhsIdx i (((ValueIdx.contrEquiv1 dot_S5000x4_S4x2_S5000x2_1_0_0_1_n_n 4 rfl rfl).trans
      (ValueIdx.contrEquiv1 Cert.ReferenceIdeal.dot_S100000x4_S4x2_S100000x2_1_0_0_1_n_n 4 rfl rfl).symm) k) (1 : Fin 2)).val := by
    rw [he11, rhsK2_col, rhsR2_col, hi1]
  have hl : e0 (dot_S5000x4_S4x2_S5000x2_1_0_0_1_n_n.lhsIdx y k)
      = Cert.ReferenceIdeal.dot_S100000x4_S4x2_S100000x2_1_0_0_1_n_n.lhsIdx i (((ValueIdx.contrEquiv1 dot_S5000x4_S4x2_S5000x2_1_0_0_1_n_n 4 rfl rfl).trans
      (ValueIdx.contrEquiv1 Cert.ReferenceIdeal.dot_S100000x4_S4x2_S100000x2_1_0_0_1_n_n 4 rfl rfl).symm) k) := by
    funext a; apply Fin.ext
    match a with
    | ⟨0, _⟩ => exact a0
    | ⟨1, _⟩ => exact a1
  have hr : e1 (dot_S5000x4_S4x2_S5000x2_1_0_0_1_n_n.rhsIdx y k)
      = Cert.ReferenceIdeal.dot_S100000x4_S4x2_S100000x2_1_0_0_1_n_n.rhsIdx i (((ValueIdx.contrEquiv1 dot_S5000x4_S4x2_S5000x2_1_0_0_1_n_n 4 rfl rfl).trans
      (ValueIdx.contrEquiv1 Cert.ReferenceIdeal.dot_S100000x4_S4x2_S100000x2_1_0_0_1_n_n 4 rfl rfl).symm) k) := by
    funext a; apply Fin.ext
    match a with
    | ⟨0, _⟩ => exact b0
    | ⟨1, _⟩ => exact b1
  rw [h0, h1, hl, hr]

/-- The index maps, decided over the grid: the left operand's and the output's blocks are block t along the rows, the
    right operand's the one whole block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array product. -/
theorem flushed2_eq (c : Dev nD) (t : Fin cfg2.N) :
    (dat2 V c).flushed 2 t = ((cfg2.win 2).blk t).view.read (Elt Ideal) (Cert.Bridge.tmm2 (V c main_v65) (V c main_arg6)) := by
  show (cfg2.win 2).cut (grid2.coords t) ((dat2 V c).after 2 t) = _
  rw [after2_2]
  unfold out2_2
  rw [View.canon_unit_zero hz2]
  simp only [View.ld_unit_zero (S := S5000x4) hz2, View.ld_unit_zero (S := S4x2) hz2]
  funext j
  show k2_pay1 (iblk2 V c 0 t) (iblk2 V c 1 t) j = Cert.Bridge.tmm2 (V c main_v65) (V c main_arg6) (((cfg2.win 2).blk t).view.emb j)
  refine (pay2_apply _ _ j).trans ?_
  refine Eq.trans ?_ (tmm2_apply _ _ _).symm
  obtain ⟨e0, e1, e2, e3, e4, e5⟩ := idx_facts2 t
  exact sum_reindex2 (V c main_v65) (V c main_arg6) (iblk2 V c 0 t) (iblk2 V c 1 t)
    (fun z => ((cfg2.win 0).blk t).view.emb z) (fun z => ((cfg2.win 1).blk t).view.emb z) j (((cfg2.win 2).blk t).view.emb j) t.val
    (fun z => rfl) (fun z => rfl)
    (fun z => by show win2_0.index t (0 : Fin 2) * 5000 + 1 * (z 0).val = _; omega)
    (fun z => by show win2_0.index t (1 : Fin 2) * 4 + 1 * (z 1).val = _; omega)
    (fun z => by show win2_1.index t (0 : Fin 2) * 4 + 1 * (z 0).val = _; omega)
    (fun z => by show win2_1.index t (1 : Fin 2) * 2 + 1 * (z 1).val = _; omega)
    (by show win2_2.index t (0 : Fin 2) * 5000 + 1 * (j 0).val = _; omega)
    (by show win2_2.index t (1 : Fin 2) * 2 + 1 * (j 1).val = _; omega)

/-- An index of the array is in point t's block iff each coordinate is in the block's range on its axis. -/
theorem mem_blk2 (t : Fin cfg2.N) (i : S100000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v66).slice (win2_2.rect t)).set ↔ _
  rw [View.set_slice_whole, Rect.mem_set_unit]
  exact Iff.rfl

/-- The output's blocks tile the array: an index lies in the block of the point its row divided by 5000 names. -/
theorem cover2 (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  have ht : (i 0).val / 5000 < 20 := by omega
  refine ⟨(⟨(i 0).val / 5000, ht⟩ : Fin cfg2.N), flush2_2 _, ?_⟩
  rw [mem_blk2]
  obtain ⟨e0, e1, e2, e3, e4, e5⟩ := idx_facts2 ⟨(i 0).val / 5000, ht⟩
  have e4' : win2_2.index (⟨(i 0).val / 5000, ht⟩ : Fin cfg2.N) (0 : Fin 2) = (i 0).val / 5000 := e4
  intro a
  match a with
  | ⟨0, _⟩ =>
    show win2_2.index (⟨(i 0).val / 5000, ht⟩ : Fin cfg2.N) (0 : Fin 2) * 5000 ≤ (i 0).val ∧ (i 0).val < win2_2.index (⟨(i 0).val / 5000, ht⟩ : Fin cfg2.N) (0 : Fin 2) * 5000 + 5000
    omega
  | ⟨1, _⟩ =>
    show win2_2.index (⟨(i 0).val / 5000, ht⟩ : Fin cfg2.N) (1 : Fin 2) * 2 ≤ (i 1).val ∧ (i 1).val < win2_2.index (⟨(i 0).val / 5000, ht⟩ : Fin cfg2.N) (1 : Fin 2) * 2 + 2
    omega

/-- The array the region's write-backs leave: tanh of the left array times the right array, whole. -/
theorem final2 (c : Dev nD) : (dat2 V c).arrAt 2 cfg2.N = Cert.Bridge.tmm2 (V c main_v65) (V c main_arg6) :=
  (dat2 V c).arrAt_eq_of_cover 2 (Cert.Bridge.tmm2 (V c main_v65) (V c main_arg6)) (fun t _ => flushed2_eq V c t) cover2

end Cert.KernelIdeal.Val

end
-- ==== Proof.Region3.lean ====
import proofs.«128120_j80625126080958_1_alg».proof.Proof.Gen.KernelIdeal.Frame
import proofs.«128120_j80625126080958_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The zero offsets of a whole-block access, as the constant function. -/
theorem hz3 : (![0, 0] : Fin 2 → Nat) = fun _ => 0 := funext fun a => by fin_cases a <;> rfl

/-- The first payload is the pointwise tanh of the 5000 x 2 block it reads: the cast to the same shape is the
    identity, and the vector tanh and the host's tanh are one function on extended reals. -/
theorem pay3_tanh_eq (x0 : Vec Ideal S5000x2 .f32) : k3_pay1 x0 = Host.tanh x0 := by
  unfold k3_pay1
  rw [shapeCast_self]
  rfl

/-- The block index maps over the 20 grid points: windows 0, 3 and 4 take block t of the rows and block 0 of
    the columns; windows 1 and 2 (the weight and the bias row) always take block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point t writes back through output window 3 is block t of tanh of the whole input array: the block's rows
    of the input and of the output are the same rows t * 5000 + r. -/
theorem flushed3_hid_eq (c : Dev nD) (t : Fin cfg3.N) :
    (dat3 V c).flushed 3 t = ((cfg3.win 3).blk t).view.read (Elt Ideal) (Cert.Bridge.hid (V c main_v82)) := by
  show (cfg3.win 3).cut (grid3.coords t) ((dat3 V c).after 3 t) = _
  rw [after3_3]
  unfold out3_3
  rw [View.canon_unit_zero hz3]
  simp only [View.ld_unit_zero (S := S5000x2) hz3]
  rw [pay3_tanh_eq]
  obtain ⟨e0, e1, e2, e3, e4, e5, e6, e7, e8, e9⟩ := idx_facts3 t
  funext j
  show Host.tanh (iblk3 V c 0 t) j = Cert.Bridge.hid (V c main_v82) (((cfg3.win 3).blk t).view.emb j)
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 2 + 1 * (j 1).val = win3_3.index t (1 : Fin 2) * 2 + 1 * (j 1).val; omega
  exact congrArg (Cert.Bridge.hid (V c main_v82)) h0

/-- An index of the 100000 x 2 output is in point t's block iff each coordinate is in the block's range on its axis. -/
theorem mem_blk3_hid (t : Fin cfg3.N) (i : S100000x2.Idx) :
    i ∈ ((cfg3.win 3).blk t).view.set ↔ ∀ a : Fin 2, win3_3.index t a * S5000x2.size a ≤ (i a).val ∧ (i a).val < win3_3.index t a * S5000x2.size a + S5000x2.size a := by
  show i ∈ ((View.whole main_v84_0).slice (win3_3.rect t)).set ↔ _
  rw [View.set_slice_whole, Rect.mem_set_unit]
  exact Iff.rfl

/-- Every index of the 100000 x 2 output lies in the block of the point t = row / 5000, which writes back. -/
theorem covered3_hid (i : S100000x2.Idx) :
    ∃ t : Fin cfg3.N, (cfg3.win 3).flush t = true ∧ i ∈ ((cfg3.win 3).blk t).view.set := by
  have hi0 : (i 0).val < 100000 := (i 0).isLt
  have hi1 : (i 1).val < 2 := (i 1).isLt
  obtain ⟨t, ht⟩ : ∃ t : Fin cfg3.N, t.val = (i 0).val / 5000 := ⟨⟨(i 0).val / 5000, by show _ < 20; omega⟩, rfl⟩
  obtain ⟨e0, e1, e2, e3, e4, e5, e6, e7, e8, e9⟩ := idx_facts3 t
  refine ⟨t, flush3_3 t, ?_⟩
  rw [mem_blk3_hid]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 2 ≤ (i 1).val ∧ (i 1).val < win3_3.index t (1 : Fin 2) * 2 + 2; omega

theorem final3_hid (c : Dev nD) : (dat3 V c).arrAt 3 cfg3.N = Cert.Bridge.hid (V c main_v82) :=
  (dat3 V c).arrAt_eq_of_cover 3 (Cert.Bridge.hid (V c main_v82)) (fun t _ => flushed3_hid_eq V c t) covered3_hid

/-! The classifier head: the row-by-column product of tanh of the block with the 2 x 4 weight, plus the bias row. -/

/-- Kernel-side product, left operand, row axis: the output's row. -/
theorem dotK3_lhs0 (j : S5000x4.Idx) (k : dot_S5000x2_S2x4_S5000x4_1_0_0_1_n_n.contr.Idx) :
    (dot_S5000x2_S2x4_S5000x4_1_0_0_1_n_n.lhsIdx j k (0 : Fin 2)).val = (j (0 : Fin 2)).val := by
  unfold DotDims.lhsIdx
  rw [dif_neg (show ¬(0 : Fin S5000x2.rank) ∈ dot_S5000x2_S2x4_S5000x4_1_0_0_1_n_n.lhsBatch by decide), dif_pos (show (0 : Fin S5000x2.rank) ∈ dot_S5000x2_S2x4_S5000x4_1_0_0_1_n_n.lhsNonContracting by decide)]
  rfl

/-- Kernel-side product, left operand, column axis: the contracted position. -/
theorem dotK3_lhs1 (j : S5000x4.Idx) (k : dot_S5000x2_S2x4_S5000x4_1_0_0_1_n_n.contr.Idx) :
    (dot_S5000x2_S2x4_S5000x4_1_0_0_1_n_n.lhsIdx j k (1 : Fin 2)).val = (k ⟨0, Nat.one_pos⟩).val :=
  dot_S5000x2_S2x4_S5000x4_1_0_0_1_n_n.lhsIdx_val_of_single (cl := (1 : Fin 2)) rfl j k

/-- Kernel-side product, right operand, row axis: the contracted position. -/
theorem dotK3_rhs0 (j : S5000x4.Idx) (k : dot_S5000x2_S2x4_S5000x4_1_0_0_1_n_n.contr.Idx) :
    (dot_S5000x2_S2x4_S5000x4_1_0_0_1_n_n.rhsIdx j k (0 : Fin 2)).val = (k ⟨0, Nat.one_pos⟩).val :=
  dot_S5000x2_S2x4_S5000x4_1_0_0_1_n_n.rhsIdx_val_of_single (cr := (0 : Fin 2)) rfl j k

/-- Kernel-side product, right operand, column axis: the output's column. -/
theorem dotK3_rhs1 (j : S5000x4.Idx) (k : dot_S5000x2_S2x4_S5000x4_1_0_0_1_n_n.contr.Idx) :
    (dot_S5000x2_S2x4_S5000x4_1_0_0_1_n_n.rhsIdx j k (1 : Fin 2)).val = (j (1 : Fin 2)).val := by
  unfold DotDims.rhsIdx
  rw [dif_neg (show ¬(1 : Fin S2x4.rank) ∈ dot_S5000x2_S2x4_S5000x4_1_0_0_1_n_n.rhsBatch by decide), dif_pos (show (1 : Fin S2x4.rank) ∈ dot_S5000x2_S2x4_S5000x4_1_0_0_1_n_n.rhsNonContracting by decide)]
  rfl

/-- Host-side product, left operand, row axis: the output's row. -/
theorem dotR3_lhs0 (i : S100000x4.Idx) (k : Cert.ReferenceIdeal.dot_S100000x2_S2x4_S100000x4_1_0_0_1_n_n.contr.Idx) :
    (Cert.ReferenceIdeal.dot_S100000x2_S2x4_S100000x4_1_0_0_1_n_n.lhsIdx i k (0 : Fin 2)).val = (i (0 : Fin 2)).val := by
  unfold DotDims.lhsIdx
  rw [dif_neg (show ¬(0 : Fin S100000x2.rank) ∈ Cert.ReferenceIdeal.dot_S100000x2_S2x4_S100000x4_1_0_0_1_n_n.lhsBatch by decide), dif_pos (show (0 : Fin S100000x2.rank) ∈ Cert.ReferenceIdeal.dot_S100000x2_S2x4_S100000x4_1_0_0_1_n_n.lhsNonContracting by decide)]
  rfl

/-- Host-side product, left operand, column axis: the contracted position. -/
theorem dotR3_lhs1 (i : S100000x4.Idx) (k : Cert.ReferenceIdeal.dot_S100000x2_S2x4_S100000x4_1_0_0_1_n_n.contr.Idx) :
    (Cert.ReferenceIdeal.dot_S100000x2_S2x4_S100000x4_1_0_0_1_n_n.lhsIdx i k (1 : Fin 2)).val = (k ⟨0, Nat.one_pos⟩).val :=
  Cert.ReferenceIdeal.dot_S100000x2_S2x4_S100000x4_1_0_0_1_n_n.lhsIdx_val_of_single (cl := (1 : Fin 2)) rfl i k

/-- Host-side product, right operand, row axis: the contracted position. -/
theorem dotR3_rhs0 (i : S100000x4.Idx) (k : Cert.ReferenceIdeal.dot_S100000x2_S2x4_S100000x4_1_0_0_1_n_n.contr.Idx) :
    (Cert.ReferenceIdeal.dot_S100000x2_S2x4_S100000x4_1_0_0_1_n_n.rhsIdx i k (0 : Fin 2)).val = (k ⟨0, Nat.one_pos⟩).val :=
  Cert.ReferenceIdeal.dot_S100000x2_S2x4_S100000x4_1_0_0_1_n_n.rhsIdx_val_of_single (cr := (0 : Fin 2)) rfl i k

/-- Host-side product, right operand, column axis: the output's column. -/
theorem dotR3_rhs1 (i : S100000x4.Idx) (k : Cert.ReferenceIdeal.dot_S100000x2_S2x4_S100000x4_1_0_0_1_n_n.contr.Idx) :
    (Cert.ReferenceIdeal.dot_S100000x2_S2x4_S100000x4_1_0_0_1_n_n.rhsIdx i k (1 : Fin 2)).val = (i (1 : Fin 2)).val := by
  unfold DotDims.rhsIdx
  rw [dif_neg (show ¬(1 : Fin S2x4.rank) ∈ Cert.ReferenceIdeal.dot_S100000x2_S2x4_S100000x4_1_0_0_1_n_n.rhsBatch by decide), dif_pos (show (1 : Fin S2x4.rank) ∈ Cert.ReferenceIdeal.dot_S100000x2_S2x4_S100000x4_1_0_0_1_n_n.rhsNonContracting by decide)]
  rfl

/-- The second payload read at an index: the sum over the one contracted axis of tanh of the input block times
    the weight, plus the bias row's entry under the index's column. -/
theorem pay3_head_apply (x0 : Vec Ideal S5000x2 .f32) (x1 : Vec Ideal S2x4 .f32) (x2 : Vec Ideal S1x4 .f32) (j : S5000x4.Idx) :
    k3_pay2 x0 x1 x2 j = (∑ k : dot_S5000x2_S2x4_S5000x4_1_0_0_1_n_n.contr.Idx,
        Host.tanh (F := Ideal) (φ := .f32) x0 (dot_S5000x2_S2x4_S5000x4_1_0_0_1_n_n.lhsIdx j k) * x1 (dot_S5000x2_S2x4_S5000x4_1_0_0_1_n_n.rhsIdx j k))
      + x2 (ValueIdx.ix2 (0 : Fin 1) (j (1 : Fin 2) : Fin 4)) := by
  have hm := Ideal.matmul_constant_zero_apply dot_S5000x2_S2x4_S5000x4_1_0_0_1_n_n none (truncf .bf16 (k3_pay1 x0) bitsLt_bf16_f32) (truncf .bf16 x1 bitsLt_bf16_f32) j
  rw [pay3_tanh_eq] at hm
  have hb : broadcastTo S5000x4 (shapeCast S1x4 x2 shapeCasts_S1x4_S1x4) broadcasts_S1x4_S5000x4 j = x2 (ValueIdx.ix2 (0 : Fin 1) (j (1 : Fin 2) : Fin 4)) := by
    rw [shapeCast_self]
    refine broadcastTo_apply x2 broadcasts_S1x4_S5000x4 j _ fun ax => ?_
    match ax with
    | ⟨0, _⟩ => rfl
    | ⟨1, _⟩ => rfl
  unfold k3_pay2
  rw [pay3_tanh_eq]
  exact congrArg₂ (· + ·) hm hb

/-- The head read at an index of the whole array: the same sum over the host's record, plus the bias row's entry
    under the index's column. -/
theorem head3_apply (p : FVec Ideal S100000x2 .f32) (w : FVec Ideal S2x4 .f32) (b : FVec Ideal S1x4 .f32) (i : S100000x4.Idx) :
    Cert.Bridge.head p w b i = (∑ k : Cert.ReferenceIdeal.dot_S100000x2_S2x4_S100000x4_1_0_0_1_n_n.contr.Idx,
        Host.tanh (F := Ideal) (φ := .f32) p (Cert.ReferenceIdeal.dot_S100000x2_S2x4_S100000x4_1_0_0_1_n_n.lhsIdx i k) * w (Cert.ReferenceIdeal.dot_S100000x2_S2x4_S100000x4_1_0_0_1_n_n.rhsIdx i k))
      + b (ValueIdx.ix2 (0 : Fin 1) (i (1 : Fin 2) : Fin 4)) := by
  have hd := Ideal.dotGeneral_apply Cert.ReferenceIdeal.dot_S100000x2_S2x4_S100000x4_1_0_0_1_n_n none .single (Host.tanh p) w i
  unfold Cert.Bridge.head
  refine congrArg₂ (· + ·) hd ?_
  refine broadcastInDim_apply _ _ b i _ fun ax => ?_
  match ax with
  | ⟨0, _⟩ => rfl
  | ⟨1, _⟩ => rfl

/-- The two records contract one axis of extent 2 each: a bijection of their contraction indices that keeps the
    one coordinate. -/
theorem contr3_equiv : ∃ e : dot_S5000x2_S2x4_S5000x4_1_0_0_1_n_n.contr.Idx ≃ Cert.ReferenceIdeal.dot_S100000x2_S2x4_S100000x4_1_0_0_1_n_n.contr.Idx,
    ∀ k, ((e k) ⟨0, Nat.one_pos⟩).val = (k ⟨0, Nat.one_pos⟩).val :=
  ⟨(ValueIdx.contrEquiv1 dot_S5000x2_S2x4_S5000x4_1_0_0_1_n_n 2 rfl rfl).trans (ValueIdx.contrEquiv1 Cert.ReferenceIdeal.dot_S100000x2_S2x4_S100000x4_1_0_0_1_n_n 2 rfl rfl).symm,
    fun k => ValueIdx.contrEquiv1_symm_val Cert.ReferenceIdeal.dot_S100000x2_S2x4_S100000x4_1_0_0_1_n_n 2 rfl rfl (ValueIdx.contrEquiv1 dot_S5000x2_S2x4_S5000x4_1_0_0_1_n_n 2 rfl rfl k)⟩

/-- One point of the head: a 5000 x 2 block that holds rows r * 5000 .. of the whole input, read at the block index
    j, gives the whole-array head at the array index i in row r * 5000 + (row of j) and the column of j. The two
    sums are matched term by term through the one contracted coordinate. -/
theorem head3_point (p : FVec Ideal S100000x2 .f32) (w : FVec Ideal S2x4 .f32) (b : FVec Ideal S1x4 .f32)
    (x0 : Vec Ideal S5000x2 .f32) (j : S5000x4.Idx) (i : S100000x4.Idx) (r : Nat)
    (hx0 : ∀ (y : S5000x2.Idx) (y' : S100000x2.Idx), (y' (0 : Fin 2)).val = r * 5000 + (y (0 : Fin 2)).val →
      (y' (1 : Fin 2)).val = (y (1 : Fin 2)).val → x0 y = p y')
    (hi0 : (i (0 : Fin 2)).val = r * 5000 + (j (0 : Fin 2)).val) (hi1 : (i (1 : Fin 2)).val = (j (1 : Fin 2)).val) :
    k3_pay2 x0 w b j = Cert.Bridge.head p w b i := by
  rw [pay3_head_apply, head3_apply]
  obtain ⟨e, he⟩ := contr3_equiv
  refine congrArg₂ (· + ·) ?_ ?_
  · refine Fintype.sum_equiv e _ _ fun k => ?_
    have hk := he k
    have a0 := dotK3_lhs0 j k
    have a1 := dotK3_lhs1 j k
    have a2 := dotK3_rhs0 j k
    have a3 := dotK3_rhs1 j k
    have b0 := dotR3_lhs0 i (e k)
    have b1 := dotR3_lhs1 i (e k)
    have b2 := dotR3_rhs0 i (e k)
    have b3 := dotR3_rhs1 i (e k)
    refine congrArg₂ (· * ·) ?_ ?_
    · exact congrArg (FloatOps.hostUnary (F := Ideal) (φ := .f32) .tanh) (hx0 _ _ (by omega) (by omega))
    · refine congrArg w (funext fun a => Fin.ext ?_)
      match a with
      | ⟨0, _⟩ => exact a2.trans (b2.trans hk).symm
      | ⟨1, _⟩ => exact a3.trans (b3.trans hi1).symm
  · refine congrArg b (funext fun a => Fin.ext ?_)
    match a with
    | ⟨0, _⟩ => rfl
    | ⟨1, _⟩ => exact hi1.symm

/-- What point t writes back through output window 4 is block t of the head of the whole arrays: the input block
    holds rows t * 5000 .. of the input, the weight and the bias row are read whole, and the output block's rows
    are the same rows. -/
theorem flushed3_head_eq (c : Dev nD) (t : Fin cfg3.N) :
    (dat3 V c).flushed 4 t = ((cfg3.win 4).blk t).view.read (Elt Ideal) (Cert.Bridge.head (V c main_v82) (V c main_arg8) (V c main_v83)) := by
  show (cfg3.win 4).cut (grid3.coords t) ((dat3 V c).after 4 t) = _
  rw [after3_4]
  unfold out3_4
  rw [View.canon_unit_zero hz3]
  simp only [View.ld_unit_zero (S := S5000x2) hz3, View.ld_unit_zero (S := S2x4) hz3, View.ld_unit_zero (S := S1x4) hz3]
  obtain ⟨e0, e1, e2, e3, e4, e5, e6, e7, e8, e9⟩ := idx_facts3 t
  have hw : iblk3 V c 1 t = V c main_arg8 := by
    funext y
    show V c main_arg8 (((cfg3.win 1).blk t).view.emb y) = V c main_arg8 y
    refine congrArg (V c main_arg8) (funext fun a => Fin.ext ?_)
    match a with
    | ⟨0, _⟩ => show win3_1.index t (0 : Fin 2) * 2 + 1 * (y 0).val = (y 0).val; omega
    | ⟨1, _⟩ => show win3_1.index t (1 : Fin 2) * 4 + 1 * (y 1).val = (y 1).val; omega
  have hbias : iblk3 V c 2 t = V c main_v83 := by
    funext y
    show V c main_v83 (((cfg3.win 2).blk t).view.emb y) = V c main_v83 y
    refine congrArg (V c main_v83) (funext fun a => Fin.ext ?_)
    match a with
    | ⟨0, _⟩ => show win3_2.index t (0 : Fin 2) * 1 + 1 * (y 0).val = (y 0).val; omega
    | ⟨1, _⟩ => show win3_2.index t (1 : Fin 2) * 4 + 1 * (y 1).val = (y 1).val; omega
  rw [hw, hbias]
  funext j
  show k3_pay2 (iblk3 V c 0 t) (V c main_arg8) (V c main_v83) j = Cert.Bridge.head (V c main_v82) (V c main_arg8) (V c main_v83) (((cfg3.win 4).blk t).view.emb j)
  refine head3_point (V c main_v82) (V c main_arg8) (V c main_v83) (iblk3 V c 0 t) j _ t.val (fun y y' h0 h1 => ?_) ?_ ?_
  · show V c main_v82 (((cfg3.win 0).blk t).view.emb y) = V c main_v82 y'
    refine congrArg (V c main_v82) (funext fun a => Fin.ext ?_)
    match a with
    | ⟨0, _⟩ => show win3_0.index t (0 : Fin 2) * 5000 + 1 * (y 0).val = (y' 0).val; omega
    | ⟨1, _⟩ => show win3_0.index t (1 : Fin 2) * 2 + 1 * (y 1).val = (y' 1).val; omega
  · show win3_4.index t (0 : Fin 2) * 5000 + 1 * (j 0).val = t.val * 5000 + (j 0).val; omega
  · show win3_4.index t (1 : Fin 2) * 4 + 1 * (j 1).val = (j 1).val; omega

/-- An index of the 100000 x 4 output is in point t's block iff each coordinate is in the block's range on its axis. -/
theorem mem_blk3_head (t : Fin cfg3.N) (i : S100000x4.Idx) :
    i ∈ ((cfg3.win 4).blk t).view.set ↔ ∀ a : Fin 2, win3_4.index t a * S5000x4.size a ≤ (i a).val ∧ (i a).val < win3_4.index t a * S5000x4.size a + S5000x4.size a := by
  show i ∈ ((View.whole main_v84_1).slice (win3_4.rect t)).set ↔ _
  rw [View.set_slice_whole, Rect.mem_set_unit]
  exact Iff.rfl

/-- Every index of the 100000 x 4 output lies in the block of the point t = row / 5000, which writes back. -/
theorem covered3_head (i : S100000x4.Idx) :
    ∃ t : Fin cfg3.N, (cfg3.win 4).flush t = true ∧ i ∈ ((cfg3.win 4).blk t).view.set := by
  have hi0 : (i 0).val < 100000 := (i 0).isLt
  have hi1 : (i 1).val < 4 := (i 1).isLt
  obtain ⟨t, ht⟩ : ∃ t : Fin cfg3.N, t.val = (i 0).val / 5000 := ⟨⟨(i 0).val / 5000, by show _ < 20; omega⟩, rfl⟩
  obtain ⟨e0, e1, e2, e3, e4, e5, e6, e7, e8, e9⟩ := idx_facts3 t
  refine ⟨t, flush3_4 t, ?_⟩
  rw [mem_blk3_head]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 4 ≤ (i 1).val ∧ (i 1).val < win3_4.index t (1 : Fin 2) * 4 + 4; omega

theorem final3_head (c : Dev nD) : (dat3 V c).arrAt 4 cfg3.N = Cert.Bridge.head (V c main_v82) (V c main_arg8) (V c main_v83) :=
  (dat3 V c).arrAt_eq_of_cover 4 (Cert.Bridge.head (V c main_v82) (V c main_arg8) (V c main_v83)) (fun t _ => flushed3_head_eq V c t) covered3_head

end Cert.KernelIdeal.Val

end
-- ==== Proof.Levels1.lean ====
import proofs.«128120_j80625126080958_1_alg».proof.Proof.Gen.KernelIdeal.Frame
import proofs.«128120_j80625126080958_1_alg».proof.Proof.RefRead
import proofs.«128120_j80625126080958_1_alg».proof.Proof.Levels0
import proofs.«128120_j80625126080958_1_alg».proof.Proof.Region0
import proofs.«128120_j80625126080958_1_alg».proof.Proof.Region1
import proofs.«128120_j80625126080958_1_alg».proof.Proof.Region2
import proofs.«128120_j80625126080958_1_alg».proof.Proof.Region3
import Idealize.ShloMosaic.Lib.StableHlo.Run
import Idealize.ShloMosaic.Lib.Pipeline.Value

/-! The kernel program's buffers, boundary by boundary, from the first dense step to the last: each dense step leaves
    its whole-array function of what it was entered with, and each aggregation stretch between two of them (gather by
    source, scale by the per-edge normalisation, segment sum by destination, add the bias) is the reference's own
    operations applied to those values. So at every boundary the live buffer holds the reference's stage function of
    the launch arrays; the two index lists, the normalisation and the arguments not yet used are carried along. -/

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo
open Cert.ReferenceIdeal.ReadP (val_main_v3 val_main_v6 val_main_v31 val_main_v32 val_main_v48 val_main_v50 val_main_v66 val_main_v68
  val_main_v84 val_main_v85 val_main_v87 val_main_v87_apply val_main_v89)

variable (m : (ℓ : Loc nD τ sig) → Buf (Elt Ideal) ℓ) (ρ : Dev nD → PrngReg) (c : Dev nD)

/-! ## After the first dense step: x · W₁ -/

theorem W4_v32 : W4 m ρ c (Proc.devRef .tc main_v32) = val_main_v32 (m ((c : Thread nD τ).loc main_arg0)) (m ((c : Thread nD τ).loc main_arg2)) := by
  refine (W4_arr m ρ c 2).trans ((final0 (V3 m ρ) c).trans ?_)
  show Cert.Bridge.proj (W3 m ρ c (Proc.devRef .tc main_arg0)) (W3 m ρ c (Proc.devRef .tc main_arg2)) = _
  rw [W3_arg m ρ c main_arg0 (by decide), W3_arg m ρ c main_arg2 (by decide)]
  rfl

theorem W4_v3 : W4 m ρ c (Proc.devRef .tc main_v3) = val_main_v3 (m ((c : Thread nD τ).loc main_arg1)) := (W4_of_ne m ρ c main_v3 (by decide)).trans (W3_v3 m ρ c)
theorem W4_v6 : W4 m ρ c (Proc.devRef .tc main_v6) = val_main_v6 (m ((c : Thread nD τ).loc main_arg1)) := (W4_of_ne m ρ c main_v6 (by decide)).trans (W3_v6 m ρ c)
theorem W4_v31 : W4 m ρ c (Proc.devRef .tc main_v31) = val_main_v31 (m ((c : Thread nD τ).loc main_arg1)) := (W4_of_ne m ρ c main_v31 (by decide)).trans (W3_v31 m ρ c)
theorem W4_arg (b : Ref sig .tc) (hb : b = main_arg3 ∨ b = main_arg4 ∨ b = main_arg5 ∨ b = main_arg6 ∨ b = main_arg7 ∨ b = main_arg8 ∨ b = main_arg9) : W4 m ρ c (Proc.devRef .tc b) = m ((c : Thread nD τ).loc b) := by
  rcases hb with rfl | rfl | rfl | rfl | rfl | rfl | rfl <;> exact (W4_of_ne m ρ c _ (by decide)).trans (W3_arg m ρ c _ (by decide))

/-! ## After the first aggregation -/

set_option maxHeartbeats 1000000 in
theorem W5_v48 : W5 m ρ c (Proc.devRef .tc main_v48) = val_main_v48 (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v48) = _
  have h32 := W4_v32 m ρ c
  have h3 := W4_v3 m ρ c
  have h6 := W4_v6 m ρ c
  have h31 := W4_v31 m ρ c
  have ha := W4_arg m ρ c main_arg3 (by decide)
  generalize W4 m ρ c = Wv at h32 h3 h6 h31 ha ⊢
  after_results
  rw [h32, h3, h6, h31, ha]
  rfl

theorem W5_v3 : W5 m ρ c (Proc.devRef .tc main_v3) = val_main_v3 (m ((c : Thread nD τ).loc main_arg1)) := by
  show StableHlo.after hostOps1 (W4 m ρ c) (Proc.devRef .tc main_v3) = _
  have h := W4_v3 m ρ c
  generalize W4 m ρ c = Wv at h ⊢
  after_results <;> exact h
theorem W5_v6 : W5 m ρ c (Proc.devRef .tc main_v6) = val_main_v6 (m ((c : Thread nD τ).loc main_arg1)) := by
  show StableHlo.after hostOps1 (W4 m ρ c) (Proc.devRef .tc main_v6) = _
  have h := W4_v6 m ρ c
  generalize W4 m ρ c = Wv at h ⊢
  after_results <;> exact h
theorem W5_v31 : W5 m ρ c (Proc.devRef .tc main_v31) = val_main_v31 (m ((c : Thread nD τ).loc main_arg1)) := by
  show StableHlo.after hostOps1 (W4 m ρ c) (Proc.devRef .tc main_v31) = _
  have h := W4_v31 m ρ c
  generalize W4 m ρ c = Wv at h ⊢
  after_results <;> exact h
theorem W5_arg (b : Ref sig .tc) (hb : b = main_arg4 ∨ b = main_arg5 ∨ b = main_arg6 ∨ b = main_arg7 ∨ b = main_arg8 ∨ b = main_arg9) : W5 m ρ c (Proc.devRef .tc b) = m ((c : Thread nD τ).loc b) := by
  show StableHlo.after hostOps1 (W4 m ρ c) (Proc.devRef .tc b) = _
  have h := W4_arg m ρ c b (by rcases hb with rfl | rfl | rfl | rfl | rfl | rfl <;> decide)
  generalize W4 m ρ c = Wv at h ⊢
  rcases hb with rfl | rfl | rfl | rfl | rfl | rfl <;> (after_results <;> exact h)

/-! ## After the second dense step: tanh · W₂ -/

theorem W6_v49 : W6 m ρ c (Proc.devRef .tc main_v49) = val_main_v50 (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((final1 (V5 m ρ) c).trans ?_)
  show Cert.Bridge.tmm4 (W5 m ρ c (Proc.devRef .tc main_v48)) (W5 m ρ c (Proc.devRef .tc main_arg4)) = _
  rw [W5_v48 m ρ c, W5_arg m ρ c main_arg4 (by decide)]
  rfl

theorem W6_v3 : W6 m ρ c (Proc.devRef .tc main_v3) = val_main_v3 (m ((c : Thread nD τ).loc main_arg1)) := (W6_of_ne m ρ c main_v3 (by decide)).trans (W5_v3 m ρ c)
theorem W6_v6 : W6 m ρ c (Proc.devRef .tc main_v6) = val_main_v6 (m ((c : Thread nD τ).loc main_arg1)) := (W6_of_ne m ρ c main_v6 (by decide)).trans (W5_v6 m ρ c)
theorem W6_v31 : W6 m ρ c (Proc.devRef .tc main_v31) = val_main_v31 (m ((c : Thread nD τ).loc main_arg1)) := (W6_of_ne m ρ c main_v31 (by decide)).trans (W5_v31 m ρ c)
theorem W6_arg (b : Ref sig .tc) (hb : b = main_arg5 ∨ b = main_arg6 ∨ b = main_arg7 ∨ b = main_arg8 ∨ b = main_arg9) : W6 m ρ c (Proc.devRef .tc b) = m ((c : Thread nD τ).loc b) := by
  rcases hb with rfl | rfl | rfl | rfl | rfl <;> exact (W6_of_ne m ρ c _ (by decide)).trans (W5_arg m ρ c _ (by decide))

/-! ## After the second aggregation -/

set_option maxHeartbeats 1000000 in
theorem W7_v65 : W7 m ρ c (Proc.devRef .tc main_v65) = val_main_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) (Proc.devRef .tc main_v65) = _
  have h49 := W6_v49 m ρ c
  have h3 := W6_v3 m ρ c
  have h6 := W6_v6 m ρ c
  have h31 := W6_v31 m ρ c
  have ha := W6_arg m ρ c main_arg5 (by decide)
  generalize W6 m ρ c = Wv at h49 h3 h6 h31 ha ⊢
  after_results
  rw [h49, h3, h6, h31, ha]
  rfl

theorem W7_v3 : W7 m ρ c (Proc.devRef .tc main_v3) = val_main_v3 (m ((c : Thread nD τ).loc main_arg1)) := by
  show StableHlo.after hostOps2 (W6 m ρ c) (Proc.devRef .tc main_v3) = _
  have h := W6_v3 m ρ c
  generalize W6 m ρ c = Wv at h ⊢
  after_results <;> exact h
theorem W7_v6 : W7 m ρ c (Proc.devRef .tc main_v6) = val_main_v6 (m ((c : Thread nD τ).loc main_arg1)) := by
  show StableHlo.after hostOps2 (W6 m ρ c) (Proc.devRef .tc main_v6) = _
  have h := W6_v6 m ρ c
  generalize W6 m ρ c = Wv at h ⊢
  after_results <;> exact h
theorem W7_v31 : W7 m ρ c (Proc.devRef .tc main_v31) = val_main_v31 (m ((c : Thread nD τ).loc main_arg1)) := by
  show StableHlo.after hostOps2 (W6 m ρ c) (Proc.devRef .tc main_v31) = _
  have h := W6_v31 m ρ c
  generalize W6 m ρ c = Wv at h ⊢
  after_results <;> exact h
theorem W7_arg (b : Ref sig .tc) (hb : b = main_arg6 ∨ b = main_arg7 ∨ b = main_arg8 ∨ b = main_arg9) : W7 m ρ c (Proc.devRef .tc b) = m ((c : Thread nD τ).loc b) := by
  show StableHlo.after hostOps2 (W6 m ρ c) (Proc.devRef .tc b) = _
  have h := W6_arg m ρ c b (by rcases hb with rfl | rfl | rfl | rfl <;> decide)
  generalize W6 m ρ c = Wv at h ⊢
  rcases hb with rfl | rfl | rfl | rfl <;> (after_results <;> exact h)

/-! ## After the third dense step: tanh · W₃ -/

theorem W8_v66 : W8 m ρ c (Proc.devRef .tc main_v66) = val_main_v68 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ((final2 (V7 m ρ) c).trans ?_)
  show Cert.Bridge.tmm2 (W7 m ρ c (Proc.devRef .tc main_v65)) (W7 m ρ c (Proc.devRef .tc main_arg6)) = _
  rw [W7_v65 m ρ c, W7_arg m ρ c main_arg6 (by decide)]
  rfl

theorem W8_v3 : W8 m ρ c (Proc.devRef .tc main_v3) = val_main_v3 (m ((c : Thread nD τ).loc main_arg1)) := (W8_of_ne m ρ c main_v3 (by decide)).trans (W7_v3 m ρ c)
theorem W8_v6 : W8 m ρ c (Proc.devRef .tc main_v6) = val_main_v6 (m ((c : Thread nD τ).loc main_arg1)) := (W8_of_ne m ρ c main_v6 (by decide)).trans (W7_v6 m ρ c)
theorem W8_v31 : W8 m ρ c (Proc.devRef .tc main_v31) = val_main_v31 (m ((c : Thread nD τ).loc main_arg1)) := (W8_of_ne m ρ c main_v31 (by decide)).trans (W7_v31 m ρ c)
theorem W8_arg (b : Ref sig .tc) (hb : b = main_arg7 ∨ b = main_arg8 ∨ b = main_arg9) : W8 m ρ c (Proc.devRef .tc b) = m ((c : Thread nD τ).loc b) := by
  rcases hb with rfl | rfl | rfl <;> exact (W8_of_ne m ρ c _ (by decide)).trans (W7_arg m ρ c _ (by decide))

/-! ## After the third aggregation; the bias of the head laid out as a row -/

set_option maxHeartbeats 1000000 in
theorem W9_v82 : W9 m ρ c (Proc.devRef .tc main_v82) = val_main_v84 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W8 m ρ c) (Proc.devRef .tc main_v82) = _
  have h66 := W8_v66 m ρ c
  have h3 := W8_v3 m ρ c
  have h6 := W8_v6 m ρ c
  have h31 := W8_v31 m ρ c
  have ha := W8_arg m ρ c main_arg7 (by decide)
  generalize W8 m ρ c = Wv at h66 h3 h6 h31 ha ⊢
  after_results
  rw [h66, h3, h6, h31, ha]
  rfl

theorem W9_arg8 : W9 m ρ c (Proc.devRef .tc main_arg8) = (m ((c : Thread nD τ).loc main_arg8)) := by
  show StableHlo.after hostOps3 (W8 m ρ c) (Proc.devRef .tc main_arg8) = _
  have h := W8_arg m ρ c main_arg8 (by decide)
  generalize W8 m ρ c = Wv at h ⊢
  after_results <;> exact h

/-- The kernel program lays the bias of the head out as a row by a reshape of the four entries, the reference by a
    broadcast along a new leading axis of extent one: entry (0, q) of either is entry q of the bias. -/
theorem W9_v83 : W9 m ρ c (Proc.devRef .tc main_v83) = val_main_v87 (m ((c : Thread nD τ).loc main_arg9)) := by
  show StableHlo.after hostOps3 (W8 m ρ c) (Proc.devRef .tc main_v83) = _
  have h := W8_arg m ρ c main_arg9 (by decide)
  generalize W8 m ρ c = Wv at h ⊢
  after_results
  rw [h]
  funext i
  rw [val_main_v87_apply]
  show shapeCast S1x4 (m ((c : Thread nD τ).loc main_arg9)) shapeCasts_S4_S1x4 i = _
  refine shapeCast_apply _ _ i _ ?_
  show ((⟨1, ![4]⟩ : Shape).rowMajor (Cert.ReferenceIdeal.ReadP.idx_main_v87 i)).val = ((⟨2, ![1, 4]⟩ : Shape).rowMajor i).val
  rw [Shape.rowMajor_val_one, Shape.rowMajor_val_two]
  have h0 : (i 0).val < 1 := (i 0).isLt
  show (i 1).val = (i 0).val * 4 + (i 1).val
  omega

/-! ## After the last dense step: the two results -/

theorem W10_hid : W10 m ρ c (Proc.devRef .tc main_v84_0) = val_main_v85 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((final3_hid (V9 m ρ) c).trans ?_)
  show Cert.Bridge.hid (W9 m ρ c (Proc.devRef .tc main_v82)) = _
  rw [W9_v82 m ρ c]
  rfl

theorem W10_head : W10 m ρ c (Proc.devRef .tc main_v84_1) = val_main_v89 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 4).trans ((final3_head (V9 m ρ) c).trans ?_)
  show Cert.Bridge.head (W9 m ρ c (Proc.devRef .tc main_v82)) (W9 m ρ c (Proc.devRef .tc main_arg8)) (W9 m ρ c (Proc.devRef .tc main_v83)) = _
  rw [W9_v82 m ρ c, W9_arg8 m ρ c, W9_v83 m ρ c]
  rfl

end Cert.KernelIdeal.Val

end
-- ==== Proof.lean ====
/- The certificate of a three-layer graph convolution network with a linear head, over the extended reals.
   Both programs compute, from the integer edge list, the destination and source lists with one self-loop per node
   appended and the symmetric normalisation 1/sqrt(deg(row)) · 1/sqrt(deg(col)) per edge, and then three times
   "project the node features, gather by source, scale per edge, sum by destination, add the bias", with tanh between
   the layers, and a last linear map of the tanh of the third layer. The kernel program runs each projection (with the
   tanh before it, and the last bias after it) as a tiled region over blocks of rows, the operands rounded to bf16 and the
   products accumulated from zero; the reference runs them as whole-array matrix products. Over the extended reals a
   change of float format is the identity and both products are the same finite sum over the contracted axis, and a
   block of rows of a product depends on those rows of the left operand only, so each region leaves the reference's
   whole-array function of what it was entered with (Region0 … Region3). Everything between the regions is the same
   host operations on both sides, applied to equal values, and is never opened (Levels0, Levels1). The law that joins
   the two sides is therefore only: a row-block of x · W is (the row-block of x) · W, and tanh acts entry by entry.
   No step needs the inputs to be finite. The ideal pass rewrote nothing in the kernel, so there is nothing to preserve. -/
import proofs.«128120_j80625126080958_1_alg».proof.Defs
import proofs.«128120_j80625126080958_1_alg».proof.Proof.Gen.Kernel
import proofs.«128120_j80625126080958_1_alg».proof.Proof.Gen.Kernel.Frame
import proofs.«128120_j80625126080958_1_alg».proof.Proof.Gen.KernelIdeal
import proofs.«128120_j80625126080958_1_alg».proof.Proof.Gen.KernelIdeal.Frame
import proofs.«128120_j80625126080958_1_alg».proof.Proof.Gen.ReferenceIdeal
import proofs.«128120_j80625126080958_1_alg».proof.Proof.Gen.Pre_finite_inputs
import proofs.«128120_j80625126080958_1_alg».proof.Proof.RefRun
import proofs.«128120_j80625126080958_1_alg».proof.Proof.RefRead
import proofs.«128120_j80625126080958_1_alg».proof.Proof.KRun
import proofs.«128120_j80625126080958_1_alg».proof.Proof.Levels1
import Idealize.ShloMosaic.Adequacy
import Idealize.ShloMosaic.Init

noncomputable section

namespace Cert.Proof

open Idealize.ShloMosaic Idealize.ShloMosaic.TcCoe Idealize.SL.Sem

/-- The kernel program as printed terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass applied no rewrite to this kernel. -/
theorem preserves : Cert.preserves_Kernel_KernelIdeal := trivial

/-- From memories that agree on the ten arguments both programs end, the kernel program's two result arrays at
    what its last region leaves, and that is the reference's last stage functions of the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v84_1),
    fun c => Cert.KernelIdeal.Gen.W10 m ρ c (Proc.devRef .tc Cert.KernelIdeal.main_v84_0),
    Cert.KernelIdeal.Val.run_main m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1, h2, h3, h4, h5, h6, h7, h8, h9⟩ := hagree c
    rw [Cert.ReferenceIdeal.ReadP.val_main_v89_eq, h0, h1, h2, h3, h4, h5, h6, h7, h8, h9]
    exact (Cert.KernelIdeal.Val.W10_head m ρ c).symm
  · obtain ⟨h0, h1, h2, h3, h4, h5, h6, h7, h8, h9⟩ := hagree c
    rw [Cert.ReferenceIdeal.ReadP.val_main_v85_eq, h0, h1, h2, h3, h4, h5, h6, h7]
    exact (Cert.KernelIdeal.Val.W10_hid m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
